-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6x120x32x88 : Shape := ⟨5, ![2, 6, 120, 32, 88]⟩
abbrev S2x6x128x32x88 : Shape := ⟨5, ![2, 6, 128, 32, 88]⟩
abbrev S1000000 : Shape := ⟨1, ![1000000]⟩
abbrev S32768 : Shape := ⟨1, ![32768]⟩
abbrev S_ : Shape := ⟨0, ![]⟩

class Facts : Prop where
  bcast_S_S2x6x120x32x88 : S_.BroadcastsInDim S2x6x120x32x88 (![] : Fin 0 → Fin S2x6x120x32x88.rank)
  reducesTo_S2x6x120x32x88_S_d0_1_2_3_4 : S2x6x120x32x88.ReducesTo [0, 1, 2, 3, 4] S_
  h_S_ : 0 < S_.numel
  bcast_S_S2x6x128x32x88 : S_.BroadcastsInDim S2x6x128x32x88 (![] : Fin 0 → Fin S2x6x128x32x88.rank)
  reducesTo_S2x6x128x32x88_S_d0_1_2_3_4 : S2x6x128x32x88.ReducesTo [0, 1, 2, 3, 4] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S2x6x120x32x88 .f32) (main_arg1 : FVec F S2x6x128x32x88 .f32) (main_arg2 : IVec S1000000 32) (main_arg3 : IVec S1000000 32) (main_arg4 : IVec S1000000 32) (main_arg5 : IVec S32768 32) (main_arg6 : IVec S32768 32) : IVec S_ 1 :=
  let main_v0 : FVec F S2x6x120x32x88 .f32 := Host.absf main_arg0
  let main_cst : FVec F S_ .f32 := constant S_ .f32 0x7F800000#32
  let main_v1 : FVec F S2x6x120x32x88 .f32 := broadcastInDim S2x6x120x32x88 ![] bcast_S_S2x6x120x32x88 main_cst
  let main_v2 : IVec S2x6x120x32x88 1 := cmpf .olt main_v0 main_v1
  let main_c : IVec S_ 1 := constantI S_ 1 1#1
  let main_v3 : IVec S_ 1 := (fun x v => Host.reduce IntOp.andi x v reducesTo_S2x6x120x32x88_S_d0_1_2_3_4 h_S_) main_v2 main_c
  let main_v4 : FVec F S2x6x128x32x88 .f32 := Host.absf main_arg1
  let main_cst_0 : FVec F S_ .f32 := constant S_ .f32 0x7F800000#32
  let main_v5 : FVec F S2x6x128x32x88 .f32 := broadcastInDim S2x6x128x32x88 ![] bcast_S_S2x6x128x32x88 main_cst_0
  let main_v6 : IVec S2x6x128x32x88 1 := cmpf .olt main_v4 main_v5
  let main_c_1 : IVec S_ 1 := constantI S_ 1 1#1
  let main_v7 : IVec S_ 1 := (fun x v => Host.reduce IntOp.andi x v reducesTo_S2x6x128x32x88_S_d0_1_2_3_4 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg4 main_v9
  let main_c_3 : IVec S_ 1 := constantI S_ 1 1#1
  let main_v11 : IVec S_ 1 := (fun x v => Host.reduce IntOp.andi x v reducesTo_S1000000_S_d0 h_S_) main_v10 main_c_3
  let main_v12 : IVec S_ 1 := andi main_v8 main_v11
  main_v12
-- ==== Kernel.lean ====
abbrev S2x6x120x32x88 : Shape := ⟨5, ![2, 6, 120, 32, 88]⟩
abbrev S2x6x128x32x88 : Shape := ⟨5, ![2, 6, 128, 32, 88]⟩
abbrev S1000000 : Shape := ⟨1, ![1000000]⟩
abbrev S32768 : Shape := ⟨1, ![32768]⟩
abbrev S2x6x32x88x128 : Shape := ⟨5, ![2, 6, 32, 88, 128]⟩
abbrev S33792x128 : Shape := ⟨2, ![33792, 128]⟩
abbrev S4055040 : Shape := ⟨1, ![4055040]⟩
abbrev S_ : Shape := ⟨0, ![]⟩
abbrev S1000000x1 : Shape := ⟨2, ![1000000, 1]⟩
abbrev S1000000x128 : Shape := ⟨2, ![1000000, 128]⟩
abbrev S1 : Shape := ⟨1, ![1]⟩
abbrev S999999 : Shape := ⟨1, ![999999]⟩
abbrev S32768x64x128 : Shape := ⟨3, ![32768, 64, 128]⟩
abbrev S1000000x2 : Shape := ⟨2, ![1000000, 2]⟩
abbrev S32768x128 : Shape := ⟨2, ![32768, 128]⟩
abbrev S2x1x128x128x128 : Shape := ⟨5, ![2, 1, 128, 128, 128]⟩
abbrev S2x128x1x128x128 : Shape := ⟨5, ![2, 128, 1, 128, 128]⟩
abbrev S256x64x128 : Shape := ⟨3, ![256, 64, 128]⟩
abbrev S256x128 : Shape := ⟨2, ![256, 128]⟩
abbrev S256x16x128 : Shape := ⟨3, ![256, 16, 128]⟩

abbrev nBuf : Space → Nat
  | .hbm => 71
  | .vmem => 4
  | .smem => 0
  | _ => 0

abbrev bufTy : (tb : Table) → Fin (tcTables nBuf tb) → BufTy
  | .hbm, ⟨0, _⟩ => ⟨S2x6x120x32x88, .f32⟩
  | .hbm, ⟨1, _⟩ => ⟨S2x6x128x32x88, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S32768, .i32⟩
  | .hbm, ⟨6, _⟩ => ⟨S32768, .i32⟩
  | .hbm, ⟨7, _⟩ => ⟨S2x6x32x88x128, .f32⟩
  | .hbm, ⟨8, _⟩ => ⟨S33792x128, .f32⟩
  | .hbm, ⟨9, _⟩ => ⟨S4055040, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S1000000x1, .f32⟩
  | .hbm, ⟨29, _⟩ => ⟨S1000000x128, .f32⟩
  | .hbm, ⟨30, _⟩ => ⟨S1000000x128, .f32⟩
  | .hbm, ⟨31, _⟩ => ⟨S_, .i1⟩
  | .hbm, ⟨32, _⟩ => ⟨S1, .i1⟩
  | .hbm, ⟨33, _⟩ => ⟨S999999, .i32⟩
  | .hbm, ⟨34, _⟩ => ⟨S999999, .i32⟩
  | .hbm, ⟨35, _⟩ => ⟨S999999, .i1⟩
  | .hbm, ⟨36, _⟩ => ⟨S1000000, .i1⟩
  | .hbm, ⟨37, _⟩ => ⟨S1000000, .i32⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S_, .i32⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S_, .f32⟩
  | .hbm, ⟨49, _⟩ => ⟨S32768x64x128, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S_, .i32⟩
  | .hbm, ⟨61, _⟩ => ⟨S1000000, .i32⟩
  | .hbm, ⟨62, _⟩ => ⟨S1000000, .i32⟩
  | .hbm, ⟨63, _⟩ => ⟨S1000000, .i32⟩
  | .hbm, ⟨64, _⟩ => ⟨S1000000x1, .i32⟩
  | .hbm, ⟨65, _⟩ => ⟨S1000000x1, .i32⟩
  | .hbm, ⟨66, _⟩ => ⟨S1000000x2, .i32⟩
  | .hbm, ⟨67, _⟩ => ⟨S32768x64x128, .f32⟩
  | .hbm, ⟨68, _⟩ => ⟨S32768x128, .f32⟩
  | .hbm, ⟨69, _⟩ => ⟨S2x1x128x128x128, .f32⟩
  | .hbm, ⟨70, _⟩ => ⟨S2x128x1x128x128, .f32⟩
  | .local _ .vmem, ⟨0, _⟩ => ⟨S256x64x128, .f32⟩
  | .local _ .vmem, ⟨1, _⟩ => ⟨S256x64x128, .f32⟩
  | .local _ .vmem, ⟨2, _⟩ => ⟨S256x128, .f32⟩
  | .local _ .vmem, ⟨3, _⟩ => ⟨S256x128, .f32⟩
  | _, _ => ⟨S2x6x120x32x88, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_c : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_c_1 : Ref sig .tc := ⟨.hbm, 19, rfl⟩
abbrev main_call0_v10 : Ref sig .tc := ⟨.hbm, 20, rfl⟩
abbrev main_call0_v11 : Ref sig .tc := ⟨.hbm, 21, rfl⟩
abbrev main_call0_c_2 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_c_3 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_c_4 : Ref sig .tc := ⟨.hbm, 38, rfl⟩
abbrev main_call0_call0_v0 : Ref sig .tc := ⟨.hbm, 39, rfl⟩
abbrev main_call0_v26 : Ref sig .tc := ⟨.hbm, 40, rfl⟩
abbrev main_call0_call1_c : Ref sig .tc := ⟨.hbm, 41, rfl⟩
abbrev main_call0_call1_v0 : Ref sig .tc := ⟨.hbm, 42, rfl⟩
abbrev main_call0_v27 : Ref sig .tc := ⟨.hbm, 43, rfl⟩
abbrev main_call0_v28 : Ref sig .tc := ⟨.hbm, 44, rfl⟩
abbrev main_call0_c_5 : Ref sig .tc := ⟨.hbm, 45, rfl⟩
abbrev main_call0_v29 : Ref sig .tc := ⟨.hbm, 46, rfl⟩
abbrev main_call0_v30 : Ref sig .tc := ⟨.hbm, 47, rfl⟩
abbrev main_call0_cst : Ref sig .tc := ⟨.hbm, 48, rfl⟩
abbrev main_call0_v31 : Ref sig .tc := ⟨.hbm, 49, rfl⟩
abbrev main_call0_c_6 : Ref sig .tc := ⟨.hbm, 50, rfl⟩
abbrev main_call0_v32 : Ref sig .tc := ⟨.hbm, 51, rfl⟩
abbrev main_call0_v33 : Ref sig .tc := ⟨.hbm, 52, rfl⟩
abbrev main_call0_c_7 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_c_8 : Ref sig .tc := ⟨.hbm, 57, rfl⟩
abbrev main_call0_v37 : Ref sig .tc := ⟨.hbm, 58, rfl⟩
abbrev main_call0_v38 : Ref sig .tc := ⟨.hbm, 59, rfl⟩
abbrev main_call0_c_9 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_v0 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def k0_mult1 : BitVec 32 :=
  let c0_i32 : BitVec 32 := 0#32
  let c16_i32 : BitVec 32 := 16#32
  let v1 : BitVec 32 := Scalar.muli c0_i32 c16_i32
  v1
def k0_off1 (c0_i32 : BitVec 32) : Fin 3 → Nat :=
  let c0 : Index := 0#32
  let c16_i32 : BitVec 32 := 16#32
  let v1 : BitVec 32 := Scalar.muli c0_i32 c16_i32
  let v2 : BitVec 32 := v1
  let v3 : Index := Scalar.indexCast v2
  let c0_0 : Index := 0#32
  ![0, v3.toNat, 0]
def k0_mult2 : BitVec 32 :=
  let c1_i32 : BitVec 32 := 1#32
  let c16_i32_2 : BitVec 32 := 16#32
  let v8 : BitVec 32 := Scalar.muli c1_i32 c16_i32_2
  v8
def k0_mult3 : BitVec 32 :=
  let c2_i32 : BitVec 32 := 2#32
  let c16_i32_6 : BitVec 32 := 16#32
  let v15 : BitVec 32 := Scalar.muli c2_i32 c16_i32_6
  v15
def k0_mult4 : BitVec 32 :=
  let c3_i32 : BitVec 32 := 3#32
  let c16_i32_10 : BitVec 32 := 16#32
  let v22 : BitVec 32 := Scalar.muli c3_i32 c16_i32_10
  v22
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S2x6x128x32x88_S2x6x32x88x128_0_1_3_4_2 : S2x6x128x32x88.Transposes [0, 1, 3, 4, 2] S2x6x32x88x128
  shapeCasts_S2x6x32x88x128_S33792x128 : S2x6x32x88x128.ShapeCasts S33792x128
  shapeCasts_S2x6x120x32x88_S4055040 : S2x6x120x32x88.ShapeCasts S4055040
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S1 : S_.BroadcastsInDim S1 (![] : Fin 0 → Fin S1.rank)
  slices_S1000000_S999999_1 : S1000000.Slices ![1] S999999
  slices_S1000000_S999999_0 : S1000000.Slices ![0] S999999
  concatenates_S1_S999999_S1000000_d0 : Shape.Concatenates [S1, S999999] S1000000 0
  bcast_S_S_ : S_.BroadcastsInDim S_ (![] : Fin 0 → Fin S_.rank)
  reduceWindows_S1000000_S1000000_w1000000s1p999999_0 : S1000000.ReduceWindows (![1000000] : Fin 1 → Nat) ![1] ![999999] ![0] S1000000
  h_S_ : 0 < S_.numel
  bcast_S_S32768x64x128 : S_.BroadcastsInDim S32768x64x128 (![] : Fin 0 → Fin S32768x64x128.rank)
  concatenates_S1000000x1_S1000000x1_S1000000x2_d1 : Shape.Concatenates [S1000000x1, S1000000x1] S1000000x2 1
  shapeCasts_S32768x128_S2x1x128x128x128 : S32768x128.ShapeCasts S2x1x128x128x128
  transposes_S2x1x128x128x128_S2x128x1x128x128_0_4_1_2_3 : S2x1x128x128x128.Transposes [0, 4, 1, 2, 3] S2x128x1x128x128
  h_S256x16x128 : 0 < S256x16x128.numel
  shapeCasts_S256x16x128_S256x16x128 : S256x16x128.ShapeCasts S256x16x128
  reduces_S256x16x128_S256x128 : S256x16x128.Reduces [1] S256x128
  inb_S256x128_S256x128_0_0 : ∀ a, (![0, 0] : Fin 2 → Nat) a + S256x128.size a ≤ S256x128.size a
  h_S256x128 : 0 < S256x128.numel
  gather_S4055040_S1000000x1_S1000000_n_0_n_n_0_1_1_wf : GatherDims.WF S4055040 S1000000x1 S1000000 [] [0] [] [0] [] 1 ![1]
  gather_S33792x128_S1000000x1_S1000000x128_1_0_n_n_0_1_1128_wf : GatherDims.WF S33792x128 S1000000x1 S1000000x128 [1] [0] [] [0] [] 1 ![1, 128]
  scatter_S32768x64x128_S1000000x2_S1000000x128_1_01_01_1_wf : ScatterDims.WF S32768x64x128 S1000000x2 S1000000x128 [1] [0, 1] [0, 1] 1
  hrank0 : 0 < grid0.rank
  k0_mult1_dvd : 16 ∣ k0_mult1.toNat
  k0_off1_inb : ∀ (r : Fin 4), ∀ a, (k0_off1 (BitVec.ofNat 32 r.val)) a + S256x16x128.size a ≤ S256x64x128.size a
  k0_mult2_dvd : 16 ∣ k0_mult2.toNat
  k0_mult3_dvd : 16 ∣ k0_mult3.toNat
  k0_mult4_dvd : 16 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x128.size a ≤ S32768x64x128.size a
  hwx0_0 : ∀ i : grid0.Coords, EltTy.bits .f32 = 32 ∨ (Rect.block (s := S32768x64x128) S256x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S32768x128.size a
  hwx0_1 : ∀ i : grid0.Coords, EltTy.bits .f32 = 32 ∨ (Rect.block (s := S32768x128) S256x128.size (cc0_transform_1 i) (hinb0_1 i)).WholeWords (EltTy.packing .f32)

variable [Facts₀]

def gather_S4055040_S1000000x1_S1000000_n_0_n_n_0_1_1 : GatherDims S4055040 S1000000x1 S1000000 where
  offsetDims := []
  collapsedSliceDims := [0]
  operandBatchingDims := []
  startIndicesBatchingDims := []
  startIndexMap := [0]
  indexVectorDim := 1
  sliceSizes := ![1]
  wf := gather_S4055040_S1000000x1_S1000000_n_0_n_n_0_1_1_wf
def gather_S33792x128_S1000000x1_S1000000x128_1_0_n_n_0_1_1128 : GatherDims S33792x128 S1000000x1 S1000000x128 where
  offsetDims := [1]
  collapsedSliceDims := [0]
  operandBatchingDims := []
  startIndicesBatchingDims := []
  startIndexMap := [0]
  indexVectorDim := 1
  sliceSizes := ![1, 128]
  wf := gather_S33792x128_S1000000x1_S1000000x128_1_0_n_n_0_1_1128_wf
def scatter_S32768x64x128_S1000000x2_S1000000x128_1_01_01_1 : ScatterDims S32768x64x128 S1000000x2 S1000000x128 where
  updateWindowDims := [1]
  insertedWindowDims := [0, 1]
  scatterDimsToOperandDims := [0, 1]
  indexVectorDim := 1
  wf := scatter_S32768x64x128_S1000000x2_S1000000x128_1_01_01_1_wf

abbrev win0_0 : Pipeline.Window sig grid0 :=
  Pipeline.Window.ofSpec (Memref.whole main_call0_v45) S256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v46) S256x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x6x120x32x88 : Shape := ⟨5, ![2, 6, 120, 32, 88]⟩
abbrev S2x6x128x32x88 : Shape := ⟨5, ![2, 6, 128, 32, 88]⟩
abbrev S1000000 : Shape := ⟨1, ![1000000]⟩
abbrev S32768 : Shape := ⟨1, ![32768]⟩
abbrev S2x6x32x88x128 : Shape := ⟨5, ![2, 6, 32, 88, 128]⟩
abbrev S33792x128 : Shape := ⟨2, ![33792, 128]⟩
abbrev S4055040 : Shape := ⟨1, ![4055040]⟩
abbrev S_ : Shape := ⟨0, ![]⟩
abbrev S1000000x1 : Shape := ⟨2, ![1000000, 1]⟩
abbrev S1000000x128 : Shape := ⟨2, ![1000000, 128]⟩
abbrev S32768x128 : Shape := ⟨2, ![32768, 128]⟩
abbrev S2x1x128x128x128 : Shape := ⟨5, ![2, 1, 128, 128, 128]⟩
abbrev S2x128x1x128x128 : Shape := ⟨5, ![2, 128, 1, 128, 128]⟩

abbrev nBuf : Space → Nat
  | .hbm => 37
  | .vmem => 0
  | .smem => 0
  | _ => 0

abbrev bufTy : (tb : Table) → Fin (tcTables nBuf tb) → BufTy
  | .hbm, ⟨0, _⟩ => ⟨S2x6x120x32x88, .f32⟩
  | .hbm, ⟨1, _⟩ => ⟨S2x6x128x32x88, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S32768, .i32⟩
  | .hbm, ⟨6, _⟩ => ⟨S32768, .i32⟩
  | .hbm, ⟨7, _⟩ => ⟨S2x6x32x88x128, .f32⟩
  | .hbm, ⟨8, _⟩ => ⟨S33792x128, .f32⟩
  | .hbm, ⟨9, _⟩ => ⟨S4055040, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000, .f32⟩
  | .hbm, ⟨19, _⟩ => ⟨S1000000x1, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S1000000x128, .f32⟩
  | .hbm, ⟨30, _⟩ => ⟨S1000000x128, .f32⟩
  | .hbm, ⟨31, _⟩ => ⟨S_, .f32⟩
  | .hbm, ⟨32, _⟩ => ⟨S32768x128, .f32⟩
  | .hbm, ⟨33, _⟩ => ⟨S1000000x1, .i32⟩
  | .hbm, ⟨34, _⟩ => ⟨S32768x128, .f32⟩
  | .hbm, ⟨35, _⟩ => ⟨S2x1x128x128x128, .f32⟩
  | .hbm, ⟨36, _⟩ => ⟨S2x128x1x128x128, .f32⟩
  | _, _ => ⟨S2x6x120x32x88, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  transposes_S2x6x128x32x88_S2x6x32x88x128_0_1_3_4_2 : S2x6x128x32x88.Transposes [0, 1, 3, 4, 2] S2x6x32x88x128
  shapeCasts_S2x6x32x88x128_S33792x128 : S2x6x32x88x128.ShapeCasts S33792x128
  shapeCasts_S2x6x120x32x88_S4055040 : S2x6x120x32x88.ShapeCasts S4055040
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S32768x128 : S_.BroadcastsInDim S32768x128 (![] : Fin 0 → Fin S32768x128.rank)
  shapeCasts_S32768x128_S2x1x128x128x128 : S32768x128.ShapeCasts S2x1x128x128x128
  transposes_S2x1x128x128x128_S2x128x1x128x128_0_4_1_2_3 : S2x1x128x128x128.Transposes [0, 4, 1, 2, 3] S2x128x1x128x128
  gather_S4055040_S1000000x1_S1000000_n_0_n_n_0_1_1_wf : GatherDims.WF S4055040 S1000000x1 S1000000 [] [0] [] [0] [] 1 ![1]
  gather_S33792x128_S1000000x1_S1000000x128_1_0_n_n_0_1_1128_wf : GatherDims.WF S33792x128 S1000000x1 S1000000x128 [1] [0] [] [0] [] 1 ![1, 128]
  scatter_S32768x128_S1000000x1_S1000000x128_1_0_0_1_wf : ScatterDims.WF S32768x128 S1000000x1 S1000000x128 [1] [0] [0] 1

variable [Facts₀]

def gather_S4055040_S1000000x1_S1000000_n_0_n_n_0_1_1 : GatherDims S4055040 S1000000x1 S1000000 where
  offsetDims := []
  collapsedSliceDims := [0]
  operandBatchingDims := []
  startIndicesBatchingDims := []
  startIndexMap := [0]
  indexVectorDim := 1
  sliceSizes := ![1]
  wf := gather_S4055040_S1000000x1_S1000000_n_0_n_n_0_1_1_wf
def gather_S33792x128_S1000000x1_S1000000x128_1_0_n_n_0_1_1128 : GatherDims S33792x128 S1000000x1 S1000000x128 where
  offsetDims := [1]
  collapsedSliceDims := [0]
  operandBatchingDims := []
  startIndicesBatchingDims := []
  startIndexMap := [0]
  indexVectorDim := 1
  sliceSizes := ![1, 128]
  wf := gather_S33792x128_S1000000x1_S1000000x128_1_0_n_n_0_1_1128_wf
def scatter_S32768x128_S1000000x1_S1000000x128_1_0_0_1 : ScatterDims S32768x128 S1000000x1 S1000000x128 where
  updateWindowDims := [1]
  insertedWindowDims := [0]
  scatterDimsToOperandDims := [0]
  indexVectorDim := 1
  wf := scatter_S32768x128_S1000000x1_S1000000x128_1_0_0_1_wf

class Facts : Prop extends Facts₀ where

variable [Facts]
-- ==== Proof.PreNonneg.lean ====
/-
  What the precondition says of the cell indices: the printed predicate is the conjunction of "every entry of the two
  float inputs is finite" and "every cell index is non-negative as a signed 32-bit integer"; where it is all ones,
  every cell index `rb p` has `0 ≤ (rb p).toInt`.
-/
import proofs.«420067_j83021717832043_3_alg».proof.Pre_finite_inputs
import proofs.«420067_j83021717832043_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Bev

open Idealize.ShloMosaic Idealize.ShloMosaic.ValueIdx

theorem nonneg_of_pre [Cert.Pre_finite_inputs.Facts]
    (a0 : FVec Ideal Cert.Pre_finite_inputs.S2x6x120x32x88 .f32) (a1 : FVec Ideal Cert.Pre_finite_inputs.S2x6x128x32x88 .f32)
    (a2 a3 a4 : IVec Cert.Pre_finite_inputs.S1000000 32) (a5 a6 : IVec Cert.Pre_finite_inputs.S32768 32)
    (h : Cert.Pre_finite_inputs.fn (F := Ideal) a0 a1 a2 a3 a4 a5 a6 = fun _ => 1#1) (p : Fin 1000000) :
    0 ≤ (a4 (ix1 p)).toInt := by
  -- the predicate at its one index is the "and" of the float-finiteness bit and the cell-index bit
  have h0 := congrFun h ValueIdx.ix0
  dsimp only [Cert.Pre_finite_inputs.fn] at h0
  have h1 : IntOp.andi _ _ = 1#1 := h0
  obtain ⟨_, h11⟩ := IntOp.andi_eq_one.1 h1
  -- the cell-index bit is an "all" over the 1000000 comparisons, so each comparison is 1
  haveI : Subsingleton Cert.Pre_finite_inputs.S_.Idx := ⟨fun a b => funext fun d => d.elim0⟩
  have h2 := Host.reduce_andi_all _ _ _ _ _ h11 (ix1 p)
  -- at index p the comparison is the signed `0 ≤ rb p`
  have h3 : BitVec.ofBool ((0#32 : BitVec 32).sle (a4 (ix1 p))) = 1#1 := h2
  have h4 : (0#32 : BitVec 32).sle (a4 (ix1 p)) = true := by
    cases hb : (0#32 : BitVec 32).sle (a4 (ix1 p))
    · rw [hb] at h3; exact absurd h3 (by decide)
    · rfl
  have h5 : (0#32 : BitVec 32).toInt ≤ (a4 (ix1 p)).toInt := BitVec.sle_iff_toInt_le.1 h4
  simpa using h5

end Cert.Bev

end
-- ==== Proof.BevChain.lean ====
/-
  The integer side of the padded scatter, as one chain of host operations over the cell indices `rb` (one per point):
  `isStart` marks the first point of every run of equal consecutive cells (point 0 always), `runStart` is the running
  maximum of the marked positions (the position at which the current run began), `slot` the distance of a point from its
  run's start, clamped to 63 and then wrapped as an index of an axis of extent 64, and `cell` the cell index wrapped
  as an index of an axis of extent 32768 (a negative `c` reads as `c + 32768`).
  What the proof needs of them: every slot lies in [0, 64) (`slot_range`), whatever the cells are, and a non-negative
  cell index is left as it is (`cell_of_nonneg`).
-/
import Idealize.ShloMosaic.PureOps
import Idealize.ShloMosaic.Lib.ValueIdx
import Idealize.ShloMosaic.Lib.StableHlo.Predicate
import Idealize.ShloMosaic.Lib.Pipeline.Value

noncomputable section

namespace Cert.Bev

open Idealize.ShloMosaic Idealize.ShloMosaic.ValueIdx

abbrev SN : Shape := ⟨1, ![1000000]⟩
abbrev SNm : Shape := ⟨1, ![999999]⟩
abbrev S1 : Shape := ⟨1, ![1]⟩
abbrev S0 : Shape := ⟨0, ![]⟩

/-- The shape relations the chain's operations take as evidence. -/
structure ChainFacts : Prop where
  b0N : S0.BroadcastsInDim SN (![] : Fin 0 → Fin SN.rank)
  b01 : S0.BroadcastsInDim S1 (![] : Fin 0 → Fin S1.rank)
  b00 : S0.BroadcastsInDim S0 (![] : Fin 0 → Fin S0.rank)
  sl1 : SN.Slices ![1] SNm
  sl0 : SN.Slices ![0] SNm
  cat : Shape.Concatenates [S1, SNm] SN 0
  rw : SN.ReduceWindows (![1000000] : Fin 1 → Nat) ![1] ![999999] ![0] SN
  h0 : 0 < S0.numel

/-- Point `p` starts a run: `p = 0`, or its cell differs from the cell of point `p - 1`. -/
def isStart (h : ChainFacts) (rb : IVec SN 32) : IVec SN 1 :=
  concatenate SN 0 [⟨S1, broadcastInDim S1 ![] h.b01 (constantI S0 1 1#1)⟩,
    ⟨SNm, cmpi .ne (extractStridedSlice SNm ![1] rb h.sl1) (extractStridedSlice SNm ![0] rb h.sl0)⟩] h.cat

/-- The marked positions: `p` where a run starts, `-1` elsewhere. -/
def marked (h : ChainFacts) (rb : IVec SN 32) : IVec SN 32 :=
  select (isStart h rb) (iotaInDim SN 32 0) (broadcastInDim SN ![] h.b0N (constantI S0 32 4294967295#32))

/-- The running (signed) maximum of the marked positions up to each point: where the point's run began. -/
def runStart (h : ChainFacts) (rb : IVec SN 32) : IVec SN 32 :=
  Host.reduceWindow IntOp.maxsi ![1000000] ![1] ![999999] ![0] (marked h rb)
    (broadcastInDim S0 ![] h.b00 (constantI S0 32 2147483648#32)) h.rw h.h0

/-- The distance from the run's start, at most 63. -/
def slotRaw (h : ChainFacts) (rb : IVec SN 32) : IVec SN 32 :=
  minsi (subi (iotaInDim SN 32 0) (runStart h rb)) (broadcastInDim SN ![] h.b0N (constantI S0 32 63#32))

/-- The same as an index of an axis of extent 64 (a negative value would wrap). -/
def slot (h : ChainFacts) (rb : IVec SN 32) : IVec SN 32 :=
  select (cmpi .slt (slotRaw h rb) (broadcastInDim SN ![] h.b0N (constantI S0 32 0#32)))
    (addi (slotRaw h rb) (broadcastInDim SN ![] h.b0N (constantI S0 32 64#32))) (slotRaw h rb)

/-- The cell as an index of an axis of extent 32768 (a negative value wraps). -/
def cell (h : ChainFacts) (rb : IVec SN 32) : IVec SN 32 :=
  select (cmpi .slt rb (broadcastInDim SN ![] h.b0N (constantI S0 32 0#32)))
    (addi rb (broadcastInDim SN ![] h.b0N (constantI S0 32 32768#32))) rb

/-! ## Words read as signed integers -/

/-- The signed maximum of two words reads as the maximum of the two integers. -/
private theorem toInt_maxsi (a b : BitVec 32) : (IntOp.maxsi a b).toInt = max a.toInt b.toInt := by
  simp only [IntOp.maxsi, BitVec.slt, decide_eq_true_eq]
  split <;> omega

/-- The signed minimum of two words reads as the minimum of the two integers. -/
private theorem toInt_minsi (a b : BitVec 32) : (IntOp.minsi a b).toInt = min a.toInt b.toInt := by
  simp only [IntOp.minsi, BitVec.slt, decide_eq_true_eq]
  split <;> omega

/-- A difference of two words whose integers are ordered and below 2³¹ does not wrap. -/
private theorem toInt_subi_small (a b : BitVec 32) (hb : 0 ≤ b.toInt) (hab : b.toInt ≤ a.toInt) :
    (IntOp.subi a b).toInt = a.toInt - b.toInt := by
  unfold IntOp.subi
  rw [BitVec.toInt_sub]
  have ha := BitVec.toInt_lt (x := a)
  exact Int.bmod_eq_of_le_mul_two (by omega) (by omega)

/-- The comparison "below zero" of a word whose integer is not negative is the bit 0. -/
private theorem cmpi_slt_zero (x : BitVec 32) (hx : 0 ≤ x.toInt) : IntOp.cmpi .slt x 0#32 = 0#1 := by
  have h : x.slt 0#32 = false := by
    simp only [BitVec.slt, decide_eq_false_iff_not]
    have : (0#32 : BitVec 32).toInt = 0 := by decide
    omega
  simp only [IntOp.cmpi, h]
  rfl

/-! ## A left fold of the signed maximum -/

/-- A fold of the signed maximum stays below a bound that holds for the initial value and for every element. -/
private theorem foldl_maxsi_le {ι : Type} (g : ι → BitVec 32) (B : Int) (l : List ι) :
    ∀ v : BitVec 32, v.toInt ≤ B → (∀ n ∈ l, (g n).toInt ≤ B) →
      (l.foldl (fun r n => IntOp.maxsi r (g n)) v).toInt ≤ B := by
  induction l with
  | nil => intro v hv _; simpa using hv
  | cons a l ih =>
    intro v hv hl
    rw [List.foldl_cons]
    refine ih _ ?_ fun n hn => hl n (List.mem_cons_of_mem _ hn)
    rw [toInt_maxsi]
    have := hl a (List.mem_cons_self ..)
    omega

/-- A fold of the signed maximum is at least any lower bound of its initial value. -/
private theorem le_foldl_maxsi_init {ι : Type} (g : ι → BitVec 32) (L : Int) (l : List ι) :
    ∀ v : BitVec 32, L ≤ v.toInt → L ≤ (l.foldl (fun r n => IntOp.maxsi r (g n)) v).toInt := by
  induction l with
  | nil => intro v hv; simpa using hv
  | cons a l ih =>
    intro v hv
    rw [List.foldl_cons]
    refine ih _ ?_
    rw [toInt_maxsi]
    omega

/-- A fold of the signed maximum is at least any lower bound of one of its elements. -/
private theorem le_foldl_maxsi_of_mem {ι : Type} (g : ι → BitVec 32) (L : Int) (l : List ι) :
    ∀ v : BitVec 32, (∃ n ∈ l, L ≤ (g n).toInt) → L ≤ (l.foldl (fun r n => IntOp.maxsi r (g n)) v).toInt := by
  induction l with
  | nil => intro v ⟨n, hn, _⟩; cases hn
  | cons a l ih =>
    intro v ⟨n, hn, hL⟩
    rw [List.foldl_cons]
    rcases List.mem_cons.1 hn with rfl | hn'
    · refine le_foldl_maxsi_init g L l _ ?_
      rw [toInt_maxsi]
      omega
    · exact ih _ ⟨n, hn', hL⟩

/-! ## The marked positions -/

/-- Point 0 starts a run: position 0 of the concatenation lies in its first piece, the one-element mask `[1]`. -/
private theorem isStart_zero (h : ChainFacts) (rb : IVec SN 32) : isStart h rb (ix1 ⟨0, by decide⟩) = 1#1 := by
  unfold isStart
  rw [concatenate_pair_apply_left (0 : Fin SN.rank) _ _ h.cat (ix1 ⟨0, by decide⟩) rfl (ix1 ⟨0, by decide⟩)
    (fun b => by match b with | ⟨0, _⟩ => rfl)]
  rfl

/-- A marked position is the position or `-1`: at most the position. -/
private theorem marked_toInt_le (h : ChainFacts) (rb : IVec SN 32) (i : SN.Idx) :
    (marked h rb i).toInt ≤ (i 0).val := by
  obtain ⟨q, rfl⟩ : ∃ q, i = ix1 q := ⟨i 0, eq_ix1 i⟩
  show (Scalar.select (isStart h rb (ix1 q)) (BitVec.ofNat 32 q.val) 4294967295#32).toInt ≤ (q.val : Int)
  unfold Scalar.select
  have hq := q.isLt
  split
  · rw [StableHlo.Predicate.toInt_ofNat_small _ (by omega)]
  · have : (4294967295#32 : BitVec 32).toInt = -1 := by decide
    omega

/-- The marked position of point 0 is 0. -/
private theorem marked_zero (h : ChainFacts) (rb : IVec SN 32) (i : SN.Idx) (hi : (i 0).val = 0) :
    (marked h rb i).toInt = 0 := by
  obtain ⟨q, rfl⟩ : ∃ q, i = ix1 q := ⟨i 0, eq_ix1 i⟩
  obtain rfl : q = ⟨0, by decide⟩ := Fin.ext hi
  show (Scalar.select (isStart h rb (ix1 ⟨0, by decide⟩)) (BitVec.ofNat 32 0) 4294967295#32).toInt = 0
  rw [isStart_zero, select_one]
  decide

/-! ## The run's start -/

/-- The running maximum at point `p` is at most `p`: every element of its window is a marked position `q ≤ p` or the
    initial value `-2³¹`. -/
private theorem runStart_le (h : ChainFacts) (rb : IVec SN 32) (p : Fin 1000000) :
    (runStart h rb (ix1 p)).toInt ≤ p.val := by
  unfold runStart Host.reduceWindow
  dsimp only
  refine foldl_maxsi_le _ _ _ _ ?_ ?_
  · show (2147483648#32 : BitVec 32).toInt ≤ (p.val : Int)
    have : (2147483648#32 : BitVec 32).toInt = -2147483648 := by decide
    omega
  · intro n _
    have hw := ((⟨1, ![1000000]⟩ : Shape).rowMajor.symm n 0).isLt
    split
    · refine le_trans (marked_toInt_le h rb _) ?_
      show ((p.val * 1 + ((⟨1, ![1000000]⟩ : Shape).rowMajor.symm n 0).val - 999999 : Nat) : Int) ≤ (p.val : Int)
      have hw' : ((⟨1, ![1000000]⟩ : Shape).rowMajor.symm n 0).val < 1000000 := hw
      omega
    · show (2147483648#32 : BitVec 32).toInt ≤ (p.val : Int)
      have : (2147483648#32 : BitVec 32).toInt = -2147483648 := by decide
      omega

/-- The running maximum at point `p` is at least 0: the window position `999999 - p` reads the marked position of
    point 0, which is 0. -/
private theorem runStart_nonneg (h : ChainFacts) (rb : IVec SN 32) (p : Fin 1000000) :
    0 ≤ (runStart h rb (ix1 p)).toInt := by
  unfold runStart Host.reduceWindow
  dsimp only
  have hp := p.isLt
  obtain ⟨n₀, hn₀⟩ : ∃ n₀ : Fin (⟨1, ![1000000]⟩ : Shape).numel,
      (⟨1, ![1000000]⟩ : Shape).rowMajor.symm n₀ = ix1 ⟨999999 - p.val, by omega⟩ :=
    ⟨(⟨1, ![1000000]⟩ : Shape).rowMajor (ix1 ⟨999999 - p.val, by omega⟩), Equiv.symm_apply_apply _ _⟩
  have hw : ((⟨1, ![1000000]⟩ : Shape).rowMajor.symm n₀ 0).val = 999999 - p.val := by rw [hn₀]
  refine le_foldl_maxsi_of_mem _ _ _ _ ⟨n₀, List.mem_finRange _, ?_⟩
  split
  · refine le_of_eq (marked_zero h rb _ ?_).symm
    show p.val * 1 + ((⟨1, ![1000000]⟩ : Shape).rowMajor.symm n₀ 0).val - 999999 = 0
    omega
  · next hin =>
    exfalso
    apply hin
    intro a
    obtain rfl : a = 0 := Subsingleton.elim _ _
    show 999999 ≤ p.val * 1 + ((⟨1, ![1000000]⟩ : Shape).rowMajor.symm n₀ 0).val ∧
      p.val * 1 + ((⟨1, ![1000000]⟩ : Shape).rowMajor.symm n₀ 0).val - 999999 < 1000000
    omega

/-- Every slot is in range: the run of point `p` began at some position in `[0, p]`, so the distance is in `[0, p]`,
    its minimum with 63 in `[0, 63]`, and the wrap does nothing. -/
theorem slot_range (h : ChainFacts) (rb : IVec SN 32) (p : Fin 1000000) :
    0 ≤ (slot h rb (ix1 p)).toInt ∧ (slot h rb (ix1 p)).toInt < 64 := by
  have hlo := runStart_nonneg h rb p
  have hhi := runStart_le h rb p
  have hp := p.isLt
  have hraw : slotRaw h rb (ix1 p)
      = IntOp.minsi (IntOp.subi (BitVec.ofNat 32 p.val) (runStart h rb (ix1 p))) 63#32 := rfl
  have hpi : (BitVec.ofNat 32 p.val).toInt = p.val := StableHlo.Predicate.toInt_ofNat_small _ (by omega)
  have h63 : (63#32 : BitVec 32).toInt = 63 := by decide
  have hr : 0 ≤ (slotRaw h rb (ix1 p)).toInt ∧ (slotRaw h rb (ix1 p)).toInt < 64 := by
    rw [hraw, toInt_minsi, toInt_subi_small _ _ hlo (by omega), hpi, h63]
    omega
  have hs : slot h rb (ix1 p)
      = Scalar.select (IntOp.cmpi .slt (slotRaw h rb (ix1 p)) 0#32) (IntOp.addi (slotRaw h rb (ix1 p)) 64#32)
          (slotRaw h rb (ix1 p)) := rfl
  rw [hs, cmpi_slt_zero _ hr.1, select_zero]
  exact hr

/-- A non-negative cell index is not wrapped. -/
theorem cell_of_nonneg (h : ChainFacts) (rb : IVec SN 32) (p : Fin 1000000) (hp : 0 ≤ (rb (ix1 p)).toInt) :
    cell h rb (ix1 p) = rb (ix1 p) := by
  have hc : cell h rb (ix1 p)
      = Scalar.select (IntOp.cmpi .slt (rb (ix1 p)) 0#32) (IntOp.addi (rb (ix1 p)) 32768#32) (rb (ix1 p)) := rfl
  rw [hc, cmpi_slt_zero _ hp, select_zero]

end Cert.Bev

end
-- ==== Proof.LibScatterRead.lean ====
/-
  The host's accumulating scatter read at one element, at the ideal instance, for the two shapes of scatter met here:
  rows of a [C × K] array addressed by ONE index per update row (`scatterAdd_rows`), and rows of a [C × S × K] array
  addressed by TWO (`scatterAdd_rows2`). Update row `p` of an [N × K] array of updates lands, whole, on the operand row
  its start index names, read signed and not clamped; an update whose start index is outside the operand contributes
  nothing. So an element of the result is the operand's element plus the sum, over the points `p` whose index names its
  row, of `u (p, k)`.
-/
import Idealize.ShloMosaic.PureOps
import Idealize.ShloMosaic.PureOps.Ideal
import Idealize.ShloMosaic.Lib.ValueIdx

noncomputable section

open scoped BigOperators

namespace Cert.Bev

open Idealize.ShloMosaic Idealize.ShloMosaic.ValueIdx

/-- An update index lands at operand index `i` exactly when, on every operand axis, its start plus its window
    coordinate is `i`'s coordinate (read as integers): the in-range condition then holds because `i` is an index. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have := h a
      rw [← e]
      show _ = ((d.start j idx a + (d.window j a : Int)).toNat : Int)
      omega
    · intro e
      funext a
      apply Fin.ext
      have := e a
      show (d.start j idx a + (d.window j a : Int)).toNat = _
      omega
  · rename_i h
    constructor
    · intro e; cases e
    · intro e
      exact absurd (fun a => by have := e a; have := (i a).isLt; omega) h

/-- Any entry of a one-element list is that element. -/
private theorem getElem_of_eq_singleton {α : Type} {l : List α} {x : α} (h : l = [x]) (i : Nat) (hi : i < l.length) :
    l[i] = x := by
  subst h
  simp only [List.length_singleton, Nat.lt_one_iff] at hi
  subst hi
  rfl

/-- One start index per row: update `(p, k')` lands at `(c, k)` exactly when row `p`'s start index, read signed, is `c`
    and `k' = k`. Axis 0 of the operand is the inserted, start-indexed one (window coordinate 0); axis 1 is the window
    axis (start 0, window coordinate `k'`). -/
private theorem rows_lands {C K N w : Nat} (d : ScatterDims ⟨2, ![C, K]⟩ ⟨2, ![N, 1]⟩ ⟨2, ![N, K]⟩)
    (huw : d.updateWindowDims = [1]) (hiw : d.insertedWindowDims = [0])
    (hsd : d.scatterDimsToOperandDims = [0]) (hivd : d.indexVectorDim = 1)
    (idx : IVec ⟨2, ![N, 1]⟩ w) (p : Fin N) (k' : Fin K) (c : Fin C) (k : Fin K) :
    d.resultIdx? (ix2 p k') idx = some (ix2 c k) ↔ (idx (ix2 p 0)).toInt = (c.val : Int) ∧ k' = k := by
  rw [resultIdx?_eq_some_iff]
  have hus : d.uScatter = [0] := by
    show Shape.kept _ d.updateWindowDims = [0]
    rw [huw]; rfl
  have hsk : d.sKept = [1] := by
    show Shape.kept _ d.insertedWindowDims = [1]
    rw [hiw]; rfl
  have hs0 : d.start (ix2 p k') idx (0 : Fin 2) = (idx (ix2 p 0)).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; exact Nat.zero_ne_one)]
      unfold ScatterDims.siCoord
      apply Fin.ext
      simp only [Fin.val_cast]
      rw [getElem_of_eq_singleton hus]
      rfl
    | ⟨1, _⟩ =>
      unfold ScatterDims.siIdx
      rw [dif_pos (by rw [hivd])]
      apply Fin.ext
      show List.idxOf _ d.scatterDimsToOperandDims = 0
      rw [hsd]; rfl
  have hs1 : d.start (ix2 p k') idx (1 : Fin 2) = 0 := by
    unfold ScatterDims.start
    rw [dif_neg (by rw [hsd]; show (1 : Fin 2) ∉ ([0] : List (Fin 2)); decide)]
  have hw0 : d.window (ix2 p k') (0 : Fin 2) = 0 := by
    unfold ScatterDims.window
    rw [dif_neg (by rw [hsk]; show (0 : Fin 2) ∉ ([1] : List (Fin 2)); decide)]
  have hw1 : d.window (ix2 p k') (1 : Fin 2) = k'.val := by
    unfold ScatterDims.window
    rw [dif_pos (by rw [hsk]; exact List.mem_singleton.mpr rfl)]
    rw [getElem_of_eq_singleton huw]
    rfl
  constructor
  · intro h
    have h0 := h (0 : Fin 2)
    have h1 := h (1 : Fin 2)
    rw [hs0, hw0] at h0; rw [hs1, hw1] at h1
    exact ⟨by simpa using h0, Fin.ext (by simpa using h1)⟩
  · rintro ⟨h0, rfl⟩ a
    match a with
    | ⟨0, _⟩ =>
      show d.start (ix2 p k') idx (0 : Fin 2) + (d.window (ix2 p k') (0 : Fin 2) : Int) = (c.val : Int)
      rw [hs0, hw0]; simpa using h0
    | ⟨1, _⟩ =>
      show d.start (ix2 p k') idx (1 : Fin 2) + (d.window (ix2 p k') (1 : Fin 2) : Int) = (k'.val : Int)
      rw [hs1, hw1]; simp

/-- One start index per update row. -/
theorem scatterAdd_rows {C K N : Nat} (d : ScatterDims ⟨2, ![C, K]⟩ ⟨2, ![N, 1]⟩ ⟨2, ![N, K]⟩)
    (huw : d.updateWindowDims = [1]) (hiw : d.insertedWindowDims = [0])
    (hsd : d.scatterDimsToOperandDims = [0]) (hivd : d.indexVectorDim = 1)
    (x : FVec Ideal ⟨2, ![C, K]⟩ .f32) (idx : IVec ⟨2, ![N, 1]⟩ 32) (u : FVec Ideal ⟨2, ![N, K]⟩ .f32)
    (c : Fin C) (k : Fin K) :
    Host.scatterAdd d x idx u (ix2 c k)
      = x (ix2 c k) + ∑ p ∈ Finset.univ.filter (fun p : Fin N => (idx (ix2 p 0)).toInt = (c.val : Int)), u (ix2 p k) := by
  show x (ix2 c k) + ∑ j ∈ Finset.univ.filter (fun j => d.resultIdx? j idx = some (ix2 c k)), u j = _
  congr 1
  rw [Finset.sum_filter, sum_idx2, Finset.sum_filter]
  refine Finset.sum_congr rfl fun p _ => ?_
  simp only [rows_lands d huw hiw hsd hivd]
  by_cases hp : (idx (ix2 p 0)).toInt = (c.val : Int)
  · simp only [hp, true_and, if_true]
    rw [Finset.sum_ite_eq' Finset.univ k (fun b => u (ix2 p b)), if_pos (Finset.mem_univ k)]
  · simp only [hp, false_and, if_false, Finset.sum_const_zero]

/-- Two start indices per row: update `(p, k')` lands at `(c, s, k)` exactly when row `p`'s two start indices, read
    signed, are `c` and `s`, and `k' = k`. Axes 0 and 1 of the operand are inserted and start-indexed (window
    coordinate 0); axis 2 is the window axis (start 0, window coordinate `k'`). -/
private theorem rows2_lands {C S K N w : Nat} (d : ScatterDims ⟨3, ![C, S, K]⟩ ⟨2, ![N, 2]⟩ ⟨2, ![N, K]⟩)
    (huw : d.updateWindowDims = [1]) (hiw : d.insertedWindowDims = [0, 1])
    (hsd : d.scatterDimsToOperandDims = [0, 1]) (hivd : d.indexVectorDim = 1)
    (idx : IVec ⟨2, ![N, 2]⟩ w) (p : Fin N) (k' : Fin K) (c : Fin C) (s : Fin S) (k : Fin K) :
    d.resultIdx? (ix2 p k') idx = some (ix3 c s k) ↔
      ((idx (ix2 p 0)).toInt = (c.val : Int) ∧ (idx (ix2 p 1)).toInt = (s.val : Int)) ∧ k' = k := by
  rw [resultIdx?_eq_some_iff]
  have hus : d.uScatter = [0] := by
    show Shape.kept _ d.updateWindowDims = [0]
    rw [huw]; rfl
  have hsk : d.sKept = [2] := by
    show Shape.kept _ d.insertedWindowDims = [2]
    rw [hiw]; rfl
  have hsi : ∀ (cc : Fin d.scatterDimsToOperandDims.length) (q : Fin 2), cc.val = q.val →
      d.siIdx (ix2 p k') cc = ix2 p q := by
    intro cc q hq
    funext b
    match b with
    | ⟨0, _⟩ =>
      unfold ScatterDims.siIdx
      rw [dif_neg (by rw [hivd]; exact Nat.zero_ne_one)]
      unfold ScatterDims.siCoord
      apply Fin.ext
      simp only [Fin.val_cast]
      rw [getElem_of_eq_singleton hus]
      rfl
    | ⟨1, _⟩ =>
      unfold ScatterDims.siIdx
      rw [dif_pos (by rw [hivd])]
      apply Fin.ext
      exact hq
  have hs0 : d.start (ix2 p k') idx (0 : Fin 3) = (idx (ix2 p 0)).toInt := by
    unfold ScatterDims.start
    rw [dif_pos (by rw [hsd]; show (0 : Fin 3) ∈ ([0, 1] : List (Fin 3)); decide)]
    rw [hsi _ 0 (by show List.idxOf _ d.scatterDimsToOperandDims = 0; rw [hsd]; rfl)]
  have hs1 : d.start (ix2 p k') idx (1 : Fin 3) = (idx (ix2 p 1)).toInt := by
    unfold ScatterDims.start
    rw [dif_pos (by rw [hsd]; show (1 : Fin 3) ∈ ([0, 1] : List (Fin 3)); decide)]
    rw [hsi _ 1 (by show List.idxOf _ d.scatterDimsToOperandDims = 1; rw [hsd]; rfl)]
  have hs2 : d.start (ix2 p k') idx (2 : Fin 3) = 0 := by
    unfold ScatterDims.start
    rw [dif_neg (by rw [hsd]; show (2 : Fin 3) ∉ ([0, 1] : List (Fin 3)); decide)]
  have hw0 : d.window (ix2 p k') (0 : Fin 3) = 0 := by
    unfold ScatterDims.window
    rw [dif_neg (by rw [hsk]; show (0 : Fin 3) ∉ ([2] : List (Fin 3)); decide)]
  have hw1 : d.window (ix2 p k') (1 : Fin 3) = 0 := by
    unfold ScatterDims.window
    rw [dif_neg (by rw [hsk]; show (1 : Fin 3) ∉ ([2] : List (Fin 3)); decide)]
  have hw2 : d.window (ix2 p k') (2 : Fin 3) = k'.val := by
    unfold ScatterDims.window
    rw [dif_pos (by rw [hsk]; exact List.mem_singleton.mpr rfl)]
    rw [getElem_of_eq_singleton huw]
    rfl
  constructor
  · intro h
    have h0 := h (0 : Fin 3)
    have h1 := h (1 : Fin 3)
    have h2 := h (2 : Fin 3)
    rw [hs0, hw0] at h0; rw [hs1, hw1] at h1; rw [hs2, hw2] at h2
    exact ⟨⟨by simpa using h0, by simpa using h1⟩, Fin.ext (by simpa using h2)⟩
  · rintro ⟨⟨h0, h1⟩, rfl⟩ a
    match a with
    | ⟨0, _⟩ =>
      show d.start (ix2 p k') idx (0 : Fin 3) + (d.window (ix2 p k') (0 : Fin 3) : Int) = (c.val : Int)
      rw [hs0, hw0]; simpa using h0
    | ⟨1, _⟩ =>
      show d.start (ix2 p k') idx (1 : Fin 3) + (d.window (ix2 p k') (1 : Fin 3) : Int) = (s.val : Int)
      rw [hs1, hw1]; simpa using h1
    | ⟨2, _⟩ =>
      show d.start (ix2 p k') idx (2 : Fin 3) + (d.window (ix2 p k') (2 : Fin 3) : Int) = (k'.val : Int)
      rw [hs2, hw2]; simp

/-- Two start indices per update row. -/
theorem scatterAdd_rows2 {C S K N : Nat} (d : ScatterDims ⟨3, ![C, S, K]⟩ ⟨2, ![N, 2]⟩ ⟨2, ![N, K]⟩)
    (huw : d.updateWindowDims = [1]) (hiw : d.insertedWindowDims = [0, 1])
    (hsd : d.scatterDimsToOperandDims = [0, 1]) (hivd : d.indexVectorDim = 1)
    (x : FVec Ideal ⟨3, ![C, S, K]⟩ .f32) (idx : IVec ⟨2, ![N, 2]⟩ 32) (u : FVec Ideal ⟨2, ![N, K]⟩ .f32)
    (c : Fin C) (s : Fin S) (k : Fin K) :
    Host.scatterAdd d x idx u (ix3 c s k)
      = x (ix3 c s k) + ∑ p ∈ Finset.univ.filter (fun p : Fin N =>
          (idx (ix2 p 0)).toInt = (c.val : Int) ∧ (idx (ix2 p 1)).toInt = (s.val : Int)), u (ix2 p k) := by
  show x (ix3 c s k) + ∑ j ∈ Finset.univ.filter (fun j => d.resultIdx? j idx = some (ix3 c s k)), u j = _
  congr 1
  rw [Finset.sum_filter, sum_idx2, Finset.sum_filter]
  refine Finset.sum_congr rfl fun p _ => ?_
  simp only [rows2_lands d huw hiw hsd hivd]
  by_cases hp : (idx (ix2 p 0)).toInt = (c.val : Int) ∧ (idx (ix2 p 1)).toInt = (s.val : Int)
  · simp only [hp, and_self, true_and, if_true]
    rw [Finset.sum_ite_eq' Finset.univ k (fun b => u (ix2 p b)), if_pos (Finset.mem_univ k)]
  · simp only [hp, false_and, if_false, Finset.sum_const_zero]

end Cert.Bev

end
-- ==== Proof.SumCollapse.lean ====
/-
  Summation algebra, over any commutative monoid (used on the extended reals, where addition is commutative and
  associative with no finiteness needed):
  * `sum_over_slots`: points sorted into `S` slots by a function `sl` whose values all lie in `[0, S)`; summing, over the
    slots, the points of each slot that satisfy `P` is summing the points that satisfy `P`.
  * `sum_four_chunks`: a sum over 64 positions taken as four consecutive chunks of 16, accumulated from zero.
  * `laneSum_apply`: the vector unit's add-reduction of a [256 × 16 × 128] block along its middle axis, read at (r, k),
    is the sum of the sixteen entries (r, j, k).
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bev

open Idealize.ShloMosaic Idealize.ShloMosaic.ValueIdx

theorem sum_over_slots {M : Type} [AddCommMonoid M] {N S : Nat} (P : Fin N → Prop) [DecidablePred P] (sl : Fin N → Int)
    (hs : ∀ p, 0 ≤ sl p ∧ sl p < (S : Int)) (f : Fin N → M) :
    ∑ s : Fin S, ∑ p ∈ Finset.univ.filter (fun p => P p ∧ sl p = (s.val : Int)), f p
      = ∑ p ∈ Finset.univ.filter P, f p := by
  classical
  -- each slot's filtered sum is a sum over the points satisfying `P` of an indicator of the slot
  have h1 : ∀ s : Fin S, ∑ p ∈ Finset.univ.filter (fun p => P p ∧ sl p = (s.val : Int)), f p
      = ∑ p ∈ Finset.univ.filter P, if sl p = (s.val : Int) then f p else 0 := by
    intro s
    rw [← Finset.filter_filter, Finset.sum_filter]
  rw [Finset.sum_congr rfl (fun s _ => h1 s), Finset.sum_comm]
  refine Finset.sum_congr rfl (fun p _ => ?_)
  -- a point lies in exactly one slot: the one numbered `(sl p).toNat`
  obtain ⟨h0, hlt⟩ := hs p
  have hlt' : (sl p).toNat < S := by omega
  rw [Finset.sum_eq_single (⟨(sl p).toNat, hlt'⟩ : Fin S)]
  · rw [if_pos]
    show sl p = (((sl p).toNat : Nat) : Int)
    omega
  · intro s _ hne
    rw [if_neg]
    intro h
    apply hne
    apply Fin.ext
    show s.val = (sl p).toNat
    omega
  · intro h
    exact absurd (Finset.mem_univ _) h

/-- A sum over `n + m` positions is the sum over the first `n` plus the sum over the last `m`. -/
private theorem sum_fin_add {M : Type} [AddCommMonoid M] (n m : Nat) (g : Fin (n + m) → M) :
    ∑ s : Fin (n + m), g s = ∑ j : Fin n, g ⟨j.val, by omega⟩ + ∑ j : Fin m, g ⟨n + j.val, by omega⟩ :=
  Fin.sum_univ_add g

theorem sum_four_chunks {M : Type} [AddCommMonoid M] (g : Fin 64 → M) :
    ((((0 + ∑ j : Fin 16, g ⟨j.val, by omega⟩) + ∑ j : Fin 16, g ⟨16 + j.val, by omega⟩)
        + ∑ j : Fin 16, g ⟨32 + j.val, by omega⟩) + ∑ j : Fin 16, g ⟨48 + j.val, by omega⟩)
      = ∑ s : Fin 64, g s := by
  rw [zero_add]
  symm
  -- 64 = ((16 + 16) + 16) + 16, split off the last chunk three times
  have e1 := sum_fin_add 48 16 g
  have e2 := sum_fin_add 32 16 (fun j : Fin 48 => g ⟨j.val, by omega⟩)
  have e3 := sum_fin_add 16 16 (fun j : Fin 32 => g ⟨j.val, by omega⟩)
  rw [e1, e2, e3]

abbrev S256x16x128 : Shape := ⟨3, ![256, 16, 128]⟩
abbrev S256x128 : Shape := ⟨2, ![256, 128]⟩

theorem laneSum_apply (v : Vec Ideal S256x16x128 .f32) (hsc : S256x16x128.ShapeCasts S256x16x128)
    (hr : S256x16x128.Reduces [1] S256x128) (r : Fin 256) (k : Fin 128) :
    multiReduction (F := Ideal) .add [1] S256x128 (shapeCast S256x16x128 v hsc) 0x00000000#32 hr (.inl rfl) rfl (ix2 r k)
      = ∑ j : Fin 16, v (ix3 r j k) := by
  -- a cast to the same shape changes nothing; the reduction over the one axis is the sum over its sixteen coordinates
  rw [shapeCast_self]
  refine (Ideal.multiReduction_add_single (φ := .f32) v _ hr (.inl rfl) rfl (ix2 r k)).trans ?_
  refine Finset.sum_congr rfl (fun j _ => congrArg v ?_)
  -- the index (r, k) with the coordinate j inserted at axis 1 is (r, j, k)
  funext a
  match a with
  | ⟨0, _⟩ => exact Fin.ext rfl
  | ⟨1, _⟩ => exact Fin.ext rfl
  | ⟨2, _⟩ => exact Fin.ext rfl

end Cert.Bev

end
-- ==== Proof.CellSums.lean ====
/-
  The heart of the equivalence, over abstract rows of updates `u` (one row of 128 channels per point) and cell indices
  `rb` that are all non-negative: scatter every point's row into a zero array of [32768 cells × 64 slots × 128 channels]
  at (its cell, its slot) and then sum each cell over its 64 slots; or scatter every point's row into a zero array of
  [32768 cells × 128 channels] at its cell. Both give, at (c, k), the sum of `u (p, k)` over the points `p` whose cell
  is `c`: every point has a slot in [0, 64), so no update is lost on the slot axis, and points that share a (cell,
  slot) pair are added, not overwritten. A cell index of 32768 or more lands outside both arrays and is dropped by both.
-/
import proofs.«420067_j83021717832043_3_alg».proof.Proof.BevChain
import proofs.«420067_j83021717832043_3_alg».proof.Proof.LibScatterRead
import proofs.«420067_j83021717832043_3_alg».proof.Proof.SumCollapse

noncomputable section

open scoped BigOperators

namespace Cert.Bev

open Idealize.ShloMosaic Idealize.ShloMosaic.ValueIdx

abbrev SNx1 : Shape := ⟨2, ![1000000, 1]⟩
abbrev SNx2 : Shape := ⟨2, ![1000000, 2]⟩
abbrev SNxK : Shape := ⟨2, ![1000000, 128]⟩
abbrev SCxK : Shape := ⟨2, ![32768, 128]⟩
abbrev SCxSxK : Shape := ⟨3, ![32768, 64, 128]⟩

theorem cellSums_eq (d1 : ScatterDims SCxK SNx1 SNxK) (d2 : ScatterDims SCxSxK SNx2 SNxK)
    (huw1 : d1.updateWindowDims = [1]) (hiw1 : d1.insertedWindowDims = [0])
    (hsd1 : d1.scatterDimsToOperandDims = [0]) (hivd1 : d1.indexVectorDim = 1)
    (huw2 : d2.updateWindowDims = [1]) (hiw2 : d2.insertedWindowDims = [0, 1])
    (hsd2 : d2.scatterDimsToOperandDims = [0, 1]) (hivd2 : d2.indexVectorDim = 1)
    (hc : ChainFacts) (hcol : SN.BroadcastsInDim SNx1 (![0] : Fin 1 → Fin SNx1.rank))
    (hcat : Shape.Concatenates [SNx1, SNx1] SNx2 1)
    (hz2 : S0.BroadcastsInDim SCxK (![] : Fin 0 → Fin SCxK.rank))
    (hz3 : S0.BroadcastsInDim SCxSxK (![] : Fin 0 → Fin SCxSxK.rank))
    (u : FVec Ideal SNxK .f32) (rb : IVec SN 32) (hrb : ∀ p : Fin 1000000, 0 ≤ (rb (ix1 p)).toInt)
    (c : Fin 32768) (k : Fin 128) :
    ∑ s : Fin 64, Host.scatterAdd d2 (broadcastInDim SCxSxK ![] hz3 (constant (F := Ideal) S0 .f32 0x00000000#32))
        (concatenate SNx2 1 [⟨SNx1, broadcastInDim SNx1 ![0] hcol (cell hc rb)⟩,
          ⟨SNx1, broadcastInDim SNx1 ![0] hcol (slot hc rb)⟩] hcat) u (ix3 c s k)
      = Host.scatterAdd d1 (broadcastInDim SCxK ![] hz2 (constant (F := Ideal) S0 .f32 0x00000000#32))
          (broadcastInDim SNx1 ![0] hcol rb) u (ix2 c k) := by
  -- the zero arrays read 0 everywhere
  have hZ3 : ∀ i, broadcastInDim SCxSxK ![] hz3 (constant (F := Ideal) S0 .f32 0x00000000#32) i = 0 := by
    intro i
    rw [StableHlo.Predicate.bcast_scalar hz3 hc.h0, constant_apply, Ideal.ofBits_zero_f32]
  have hZ2 : ∀ i, broadcastInDim SCxK ![] hz2 (constant (F := Ideal) S0 .f32 0x00000000#32) i = 0 := by
    intro i
    rw [StableHlo.Predicate.bcast_scalar hz2 hc.h0, constant_apply, Ideal.ofBits_zero_f32]
  -- a vector laid as an [N × 1] column reads the vector at the row
  have hcol1 : ∀ (v : IVec SN 32) (p : Fin 1000000), broadcastInDim SNx1 ![0] hcol v (ix2 p 0) = v (ix1 p) := by
    intro v p
    have e1 : (ix2 p 0 : SNx1.Idx) = StableHlo.Predicate.ixP p := by
      funext a; match a with | ⟨0, _⟩ => rfl | ⟨1, _⟩ => rfl
    have e2 : (ix1 p : SN.Idx) = Shape.Idx.ofFin p := by
      funext a; match a with | ⟨0, _⟩ => rfl
    rw [e1, e2]
    exact StableHlo.Predicate.bcast_col1 hcol v p
  -- the two start-index columns side by side: column 0 is the first, column 1 the second
  have hcat0 : ∀ (x₁ x₂ : IVec SNx1 32) (p : Fin 1000000),
      concatenate SNx2 1 [⟨SNx1, x₁⟩, ⟨SNx1, x₂⟩] hcat (ix2 p 0) = x₁ (ix2 p 0) := by
    intro x₁ x₂ p
    refine concatenate_pair_apply_left (t := SNx2) (s₁ := SNx1) (s₂ := SNx1) (1 : Fin 2) x₁ x₂ hcat (ix2 p 0) rfl (ix2 p 0) ?_
    intro b; match b with | ⟨0, _⟩ => rfl | ⟨1, _⟩ => rfl
  have hcat1 : ∀ (x₁ x₂ : IVec SNx1 32) (p : Fin 1000000),
      concatenate SNx2 1 [⟨SNx1, x₁⟩, ⟨SNx1, x₂⟩] hcat (ix2 p 1) = x₂ (ix2 p 0) := by
    intro x₁ x₂ p
    refine concatenate_pair_apply_right (t := SNx2) (s₁ := SNx1) (s₂ := SNx1) (1 : Fin 2) x₁ x₂ hcat (ix2 p 1) rfl rfl
      (ix2 p 0) ?_ ?_
    · intro b hb; match b, hb with
      | ⟨0, _⟩, _ => rfl
      | ⟨1, _⟩, hb => exact absurd rfl hb
    · rfl
  -- each slot's element of the two-index scatter
  have hL : ∀ s : Fin 64,
      Host.scatterAdd d2 (broadcastInDim SCxSxK ![] hz3 (constant (F := Ideal) S0 .f32 0x00000000#32))
        (concatenate SNx2 1 [⟨SNx1, broadcastInDim SNx1 ![0] hcol (cell hc rb)⟩,
          ⟨SNx1, broadcastInDim SNx1 ![0] hcol (slot hc rb)⟩] hcat) u (ix3 c s k)
      = ∑ p ∈ Finset.univ.filter (fun p : Fin 1000000 =>
          (rb (ix1 p)).toInt = (c.val : Int) ∧ (slot hc rb (ix1 p)).toInt = (s.val : Int)), u (ix2 p k) := by
    intro s
    rw [scatterAdd_rows2 d2 huw2 hiw2 hsd2 hivd2, hZ3, zero_add]
    refine Finset.sum_congr (Finset.filter_congr fun p _ => ?_) (fun _ _ => rfl)
    rw [hcat0, hcat1, hcol1, hcol1, cell_of_nonneg hc rb p (hrb p)]
  rw [Finset.sum_congr rfl (fun s _ => hL s)]
  -- the one-index scatter's element
  rw [scatterAdd_rows d1 huw1 hiw1 hsd1 hivd1, hZ2, zero_add]
  have hR : ∑ p ∈ Finset.univ.filter (fun p : Fin 1000000 =>
        (broadcastInDim SNx1 ![0] hcol rb (ix2 p 0)).toInt = (c.val : Int)), u (ix2 p k)
      = ∑ p ∈ Finset.univ.filter (fun p : Fin 1000000 => (rb (ix1 p)).toInt = (c.val : Int)), u (ix2 p k) := by
    refine Finset.sum_congr (Finset.filter_congr fun p _ => ?_) (fun _ _ => rfl)
    rw [hcol1]
  rw [hR]
  -- every point has exactly one slot
  exact sum_over_slots (fun p : Fin 1000000 => (rb (ix1 p)).toInt = (c.val : Int))
    (fun p => (slot hc rb (ix1 p)).toInt) (fun p => slot_range hc rb p) (fun p => u (ix2 p k))

end Cert.Bev

end
-- ==== Proof.HostDefs.lean ====
/-
  The kernel's input array as one function of the five argument arrays that matter: the padded array is the zero array
  of shape [32768 cells × 64 slots × 128 channels] with every point's row of updates added at the (cell, slot) pair the
  point's wrapped cell index and its slot name. The updates (`prod`: the gathered depth scalar times the gathered
  feature row, per point) are the same function of the arguments on the reference's side, and are never opened.
-/
import proofs.«420067_j83021717832043_3_alg».proof.Proof.Gen.KernelIdeal
import proofs.«420067_j83021717832043_3_alg».proof.Proof.BevChain
import Idealize.ShloMosaic.PureOps.Ideal

noncomputable section

namespace Cert.KernelIdeal.Bridge

open Cert.KernelIdeal Cert.KernelIdeal.Gen Idealize.ShloMosaic Idealize.ShloMosaic.TcCoe Idealize.SL.Sem

/-- The shape relations of the integer chain, from the program's stated facts. -/
theorem chainFacts : Cert.Bev.ChainFacts :=
  ⟨bcast_S_S1000000, bcast_S_S1, bcast_S_S_, slices_S1000000_S999999_1, slices_S1000000_S999999_0,
    concatenates_S1_S999999_S1000000_d0, reduceWindows_S1000000_S1000000_w1000000s1p999999_0, h_S_⟩

/-- The per-point rows of updates: the depth scalar gathered at the (wrapped) depth index, laid along the 128
    channels, times the feature row gathered at the (wrapped) feature index. -/
def prod (a0 : FVec Ideal S2x6x120x32x88 .f32) (a1 : FVec Ideal S2x6x128x32x88 .f32) (a2 a3 : IVec S1000000 32) :
    FVec Ideal S1000000x128 .f32 :=
  mulf
    (broadcastInDim S1000000x128 ![0, 1] bcast_S1000000x1_S1000000x128_0_1
      (broadcastInDim S1000000x1 ![0] bcast_S1000000_S1000000x1_0
        (Host.gather gather_S4055040_S1000000x1_S1000000_n_0_n_n_0_1_1
          (shapeCast S4055040 a0 shapeCasts_S2x6x120x32x88_S4055040)
          (broadcastInDim S1000000x1 ![0] bcast_S1000000_S1000000x1_0
            (select (cmpi .slt a2 (broadcastInDim S1000000 ![] bcast_S_S1000000 (constantI S_ 32 0#32)))
              (addi a2 (broadcastInDim S1000000 ![] bcast_S_S1000000 (constantI S_ 32 4055040#32))) a2)))))
    (Host.gather gather_S33792x128_S1000000x1_S1000000x128_1_0_n_n_0_1_1128
      (shapeCast S33792x128 (transpose S2x6x32x88x128 [0, 1, 3, 4, 2] a1 transposes_S2x6x128x32x88_S2x6x32x88x128_0_1_3_4_2)
        shapeCasts_S2x6x32x88x128_S33792x128)
      (broadcastInDim S1000000x1 ![0] bcast_S1000000_S1000000x1_0
        (select (cmpi .slt a3 (broadcastInDim S1000000 ![] bcast_S_S1000000 (constantI S_ 32 0#32)))
          (addi a3 (broadcastInDim S1000000 ![] bcast_S_S1000000 (constantI S_ 32 33792#32))) a3)))

/-- The two start indices of every point, side by side: its wrapped cell and its slot. -/
def starts (a4 : IVec S1000000 32) : IVec S1000000x2 32 :=
  concatenate S1000000x2 1
    [⟨S1000000x1, broadcastInDim S1000000x1 ![0] bcast_S1000000_S1000000x1_0 (Cert.Bev.cell chainFacts a4)⟩,
     ⟨S1000000x1, broadcastInDim S1000000x1 ![0] bcast_S1000000_S1000000x1_0 (Cert.Bev.slot chainFacts a4)⟩]
    concatenates_S1000000x1_S1000000x1_S1000000x2_d1

/-- The padded array: zero plus the updates scattered to their (cell, slot) rows. -/
def padded (u : FVec Ideal S1000000x128 .f32) (a4 : IVec S1000000 32) : FVec Ideal S32768x64x128 .f32 :=
  Host.scatterAdd scatter_S32768x64x128_S1000000x2_S1000000x128_1_01_01_1
    (broadcastInDim S32768x64x128 ![] bcast_S_S32768x64x128 (constant S_ .f32 0x00000000#32))
    (starts a4) u

/-- The slot computed from the positions `io` and the run starts `rs`: their difference, at most 63, wrapped as an index of
    an axis of extent 64. (`Cert.Bev.slot` is this at the positions 0, 1, 2, … and the running maximum of the marked ones.) -/
def slotFrom (io rs : IVec S1000000 32) : IVec S1000000 32 :=
  select
    (cmpi .slt (minsi (subi io rs) (broadcastInDim S1000000 ![] bcast_S_S1000000 (constantI S_ 32 63#32)))
      (broadcastInDim S1000000 ![] bcast_S_S1000000 (constantI S_ 32 0#32)))
    (addi (minsi (subi io rs) (broadcastInDim S1000000 ![] bcast_S_S1000000 (constantI S_ 32 63#32)))
      (broadcastInDim S1000000 ![] bcast_S_S1000000 (constantI S_ 32 64#32)))
    (minsi (subi io rs) (broadcastInDim S1000000 ![] bcast_S_S1000000 (constantI S_ 32 63#32)))

/-- The padded array from the updates, the cell indices, the positions and the run starts. -/
def paddedFrom (u : FVec Ideal S1000000x128 .f32) (a4 io rs : IVec S1000000 32) : FVec Ideal S32768x64x128 .f32 :=
  Host.scatterAdd scatter_S32768x64x128_S1000000x2_S1000000x128_1_01_01_1
    (broadcastInDim S32768x64x128 ![] bcast_S_S32768x64x128 (constant S_ .f32 0x00000000#32))
    (concatenate S1000000x2 1
      [⟨S1000000x1, broadcastInDim S1000000x1 ![0] bcast_S1000000_S1000000x1_0 (Cert.Bev.cell chainFacts a4)⟩,
       ⟨S1000000x1, broadcastInDim S1000000x1 ![0] bcast_S1000000_S1000000x1_0 (slotFrom io rs)⟩]
      concatenates_S1000000x1_S1000000x1_S1000000x2_d1)
    u

/-- The padded array is that at the positions 0, 1, 2, … and the chain's run starts. -/
theorem padded_eq_from (u : FVec Ideal S1000000x128 .f32) (a4 : IVec S1000000 32) :
    padded u a4 = paddedFrom u a4 (iotaInDim S1000000 32 0) (Cert.Bev.runStart chainFacts a4) := rfl

end Cert.KernelIdeal.Bridge

end
-- ==== Proof.HostPrefix.lean ====
/-
  The host operations before the kernel (gathers, a multiply, the run-position chain, the scatter into the zero array)
  leave the padded array of the arguments' launch contents in the kernel's input buffer: each operation's result buffer
  holds its function of its operands' buffers, read back through the list. The list is read in two stretches, cut
  after the running maximum: the later stretch is read over ANY contents left by the earlier one, so the running
  maximum enters it as one array and is never opened; the earlier stretch is read once per buffer the later one uses.
-/
import proofs.«420067_j83021717832043_3_alg».proof.Proof.Gen.KernelIdeal.Frame
import proofs.«420067_j83021717832043_3_alg».proof.Proof.HostDefs
import Idealize.ShloMosaic.Lib.StableHlo.Run
import Idealize.ShloMosaic.PureOps.Ideal
import Mathlib.Tactic.DefEqTransformations

noncomputable section

namespace Cert.KernelIdeal.Bridge

open Cert.KernelIdeal Cert.KernelIdeal.Gen Idealize.ShloMosaic Idealize.ShloMosaic.TcCoe Idealize.SL.Sem
open Idealize.ShloMosaic.StableHlo

/-- Running a list of operations and then another is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The running maximum of equal operands is equal, whatever the evidence. -/
theorem runMax_congr {x x' : IVec S1000000 32} {v v' : IVec S_ 32} (hx : x = x') (hv : v = v')
    (h1 h1' : S1000000.ReduceWindows (![1000000] : Fin 1 → Nat) ![1] ![999999] ![0] S1000000) (h2 h2' : 0 < S_.numel) :
    Host.reduceWindow IntOp.maxsi ![1000000] ![1] ![999999] ![0] x v h1 h2
      = Host.reduceWindow IntOp.maxsi ![1000000] ![1] ![999999] ![0] x' v' h1' h2' := by
  subst hx hv; rfl

/-! ## The later stretch, over any contents -/

set_option maxHeartbeats 4000000 in
theorem later (W : Valuation τ sig (Elt Ideal)) :
    after ((hostOps0 (F := Ideal)).drop 37) W (Proc.devRef .tc main_call0_v45)
      = paddedFrom (W (Proc.devRef .tc main_call0_v19)) (W (Proc.devRef .tc main_arg4))
          (W (Proc.devRef .tc main_call0_v25)) (W (Proc.devRef .tc main_call0_v27)) := by
  simp only [hostOps0, List.drop_succ_cons, List.drop_zero]
  after_results
  rfl

/-! ## The earlier stretch, buffer by buffer -/

variable (m : (ℓ : Loc nD τ sig) → Buf (Elt Ideal) ℓ)

set_option maxHeartbeats 4000000 in
theorem earlier_prod (c : Dev nD) :
    after ((hostOps0 (F := Ideal)).take 37) (fun b => m (c, b)) (Proc.devRef .tc main_call0_v19)
      = prod (m ((c : Thread nD τ).loc main_arg0)) (m ((c : Thread nD τ).loc main_arg1))
          (m ((c : Thread nD τ).loc main_arg2)) (m ((c : Thread nD τ).loc main_arg3)) := by
  simp only [hostOps0, List.take_succ_cons, List.take_zero]
  after_results
  rfl

set_option maxHeartbeats 4000000 in
theorem earlier_cells (c : Dev nD) :
    after ((hostOps0 (F := Ideal)).take 37) (fun b => m (c, b)) (Proc.devRef .tc main_arg4)
      = m ((c : Thread nD τ).loc main_arg4) := by
  simp only [hostOps0, List.take_succ_cons, List.take_zero]
  after_results

set_option maxHeartbeats 4000000 in
theorem earlier_iota (c : Dev nD) :
    after ((hostOps0 (F := Ideal)).take 37) (fun b => m (c, b)) (Proc.devRef .tc main_call0_v25)
      = iotaInDim S1000000 32 0 := by
  simp only [hostOps0, List.take_succ_cons, List.take_zero]
  after_results
  rfl

set_option maxHeartbeats 4000000 in
theorem earlier_runStart (c : Dev nD) :
    after ((hostOps0 (F := Ideal)).take 37) (fun b => m (c, b)) (Proc.devRef .tc main_call0_v27)
      = Cert.Bev.runStart chainFacts (m ((c : Thread nD τ).loc main_arg4)) := by
  simp only [hostOps0, List.take_succ_cons, List.take_zero]
  after_results
  refine (cast_eq _ _).trans ?_
  beta_reduce
  unfold Cert.Bev.runStart
  exact runMax_congr rfl rfl _ _ _ _

/-- The kernel finds its input array at the padded array of the arguments' launch contents. -/
theorem V_padded (c : Dev nD) :
    V (F := Ideal) m c (Pipeline.arrRef spec0 0)
      = padded (prod (m ((c : Thread nD τ).loc main_arg0)) (m ((c : Thread nD τ).loc main_arg1))
          (m ((c : Thread nD τ).loc main_arg2)) (m ((c : Thread nD τ).loc main_arg3))) (m ((c : Thread nD τ).loc main_arg4)) := by
  show StableHlo.after hostOps0 (fun b => m (c, b)) (Proc.devRef .tc main_call0_v45) = _
  rw [← List.take_append_drop 37 (hostOps0 (F := Ideal)), after_append, later, earlier_prod, earlier_cells, earlier_iota,
    earlier_runStart, padded_eq_from]

end Cert.KernelIdeal.Bridge

end
-- ==== Proof.KernelBody.lean ====
/-
  What the kernel body leaves in the output's staging buffer at a grid point, as a function of the input block `x0`
  (256 cells × 64 slots × 128 channels): the body loads the block in four chunks of sixteen slots, sums each chunk along
  the slot axis, and accumulates the four partial sums from zero; its one store writes the result over the whole
  [256 × 128] output block. Read at (r, k) this is the sum over all 64 slots s of `x0 (r, s, k)`: addition of
  extended reals is commutative and associative, so the grouping into chunks does not matter.
-/
import proofs.«420067_j83021717832043_3_alg».proof.Proof.Gen.KernelIdeal.Frame
import proofs.«420067_j83021717832043_3_alg».proof.Proof.SumCollapse
import Idealize.ShloMosaic.Lib.Pipeline.Value
import Idealize.ShloMosaic.Lib.Tactic
import Idealize.ShloMosaic.Lib.ValueIdx

noncomputable section

open scoped BigOperators

namespace Cert.KernelIdeal.Bridge

open Cert.KernelIdeal Cert.KernelIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl

/-- The body's one covering store leaves its payload, whose four loads read the input block through the four
    rectangles of sixteen consecutive slots. -/
theorem out_A {F : FTy → Type} [FloatOps F] (c : Dev nD) (i : grid0.Coords)
    (a1 : Memref sig .tc .vmem S256x64x128 .f32) (h1 : a1.IsWhole)
    (a2 : Memref sig .tc .vmem S256x128 .f32) (h2 : a2.IsWhole) (x0 : Vec F S256x64x128 .f32)
    (p0 : ∀ a, (![0, 0, 0] : Fin 3 → Nat) a + (![256, 16, 128] : Fin 3 → Nat) a ≤ S256x64x128.size a)
    (p1 : ∀ a, (![0, 16, 0] : Fin 3 → Nat) a + (![256, 16, 128] : Fin 3 → Nat) a ≤ S256x64x128.size a)
    (p2 : ∀ a, (![0, 32, 0] : Fin 3 → Nat) a + (![256, 16, 128] : Fin 3 → Nat) a ≤ S256x64x128.size a)
    (p3 : ∀ a, (![0, 48, 0] : Fin 3 → Nat) a + (![256, 16, 128] : Fin 3 → Nat) a ≤ S256x64x128.size a) :
    out0_A_1 c i a1 h1 a2 h2 x0
      = k0_pay1 (View.ld x0 (Rect.unit ![0, 0, 0] ![256, 16, 128] p0)) (View.ld x0 (Rect.unit ![0, 16, 0] ![256, 16, 128] p1))
          (View.ld x0 (Rect.unit ![0, 32, 0] ![256, 16, 128] p2)) (View.ld x0 (Rect.unit ![0, 48, 0] ![256, 16, 128] p3)) := by
  unfold out0_A_1
  rw [View.read_writes_eq_canon _ _ _ (cover0_A_1 c i a1 h1 a2 h2 x0)]
  unfold kernelRun0_A
  dsimp only
  sl_unfold_words
  rw [View.canon_unit_zero hz2]
  simp only [View.readAt_eq_ld, h1.read_unread]

/-- Entry (r, s', k) of the chunk that starts at slot `o` is entry (r, o + s', k) of the block. -/
theorem chunk_apply (x0 : Vec Ideal S256x64x128 .f32) (o : Nat) (ho : o + 16 ≤ 64)
    (po : ∀ a, (![0, o, 0] : Fin 3 → Nat) a + (![256, 16, 128] : Fin 3 → Nat) a ≤ S256x64x128.size a)
    (r : Fin 256) (j : Fin 16) (k : Fin 128) :
    View.ld x0 (Rect.unit ![0, o, 0] ![256, 16, 128] po) (ix3 r j k) = x0 (ix3 r ⟨o + j.val, by omega⟩ k) := by
  show x0 ((Rect.unit (s := S256x64x128) ![0, o, 0] ![256, 16, 128] po).emb (ix3 r j k)) = _
  refine congrArg x0 ?_
  funext a
  apply Fin.ext
  match a with
  | ⟨0, _⟩ => show 0 + 1 * r.val = r.val; omega
  | ⟨1, _⟩ => show o + 1 * j.val = o + j.val; omega
  | ⟨2, _⟩ => show 0 + 1 * k.val = k.val; omega

/-- At (r, k) the body leaves the sum of the block's entries (r, s, k) over all 64 slots. -/
theorem out_A_apply (c : Dev nD) (i : grid0.Coords)
    (a1 : Memref sig .tc .vmem S256x64x128 .f32) (h1 : a1.IsWhole)
    (a2 : Memref sig .tc .vmem S256x128 .f32) (h2 : a2.IsWhole) (x0 : Vec Ideal S256x64x128 .f32)
    (r : Fin 256) (k : Fin 128) :
    out0_A_1 (F := Ideal) c i a1 h1 a2 h2 x0 (ix2 r k) = ∑ s : Fin 64, x0 (ix3 r s k) := by
  rw [out_A c i a1 h1 a2 h2 x0 (by decide) (by decide) (by decide) (by decide)]
  unfold k0_pay1
  dsimp only
  simp only [addf_apply, broadcast_apply, Ideal.ofBits_def, Ideal.ofBits_zero_f32]
  rw [Cert.Bev.laneSum_apply, Cert.Bev.laneSum_apply, Cert.Bev.laneSum_apply, Cert.Bev.laneSum_apply]
  simp only [chunk_apply x0 0 (by omega), chunk_apply x0 16 (by omega), chunk_apply x0 32 (by omega),
    chunk_apply x0 48 (by omega)]
  exact Cert.Bev.sum_four_chunks (fun s : Fin 64 => x0 (ix3 r s k))

end Cert.KernelIdeal.Bridge

end
-- ==== Proof.KernelArray.lean ====
/-
  From the blocks to the kernel's result. Grid point `t` (of 128) reads rows [256 t, 256 t + 256) of the padded array
  and writes rows [256 t, 256 t + 256) of the output array; what it writes at (r, k) is the sum over the 64 slots of the
  padded array at (256 t + r, s, k). The 128 blocks tile the output array, so after the run the output array is
  `cellSums` of the padded array: at (c, k) the sum over the slots s of the padded array at (c, s, k). The two host
  operations after the kernel (a reshape and a transpose) are applied to that array.
-/
import proofs.«420067_j83021717832043_3_alg».proof.Proof.KernelBody
import Idealize.ShloMosaic.Lib.Pipeline.Value
import Idealize.ShloMosaic.Lib.StableHlo.Run

noncomputable section

open scoped BigOperators

namespace Cert.KernelIdeal.Bridge

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Each cell's sum over the slot axis. -/
def cellSums (X : FVec Ideal S32768x64x128 .f32) : FVec Ideal S32768x128 .f32 :=
  fun i => ∑ s : Fin 64, X (ix3 (i 0) s (i 1))

/-- The per-cell sum at (q, k): the sum over the 64 slots. -/
theorem cellSums_apply (X : FVec Ideal S32768x64x128 .f32) (q : Fin 32768) (k : Fin 128) :
    cellSums X (ix2 q k) = ∑ s : Fin 64, X (ix3 q s k) := rfl

/-- The padded array as the kernel finds it. -/
abbrev xarr (c : Dev nD) : FVec Ideal S32768x64x128 .f32 := V m c (Pipeline.arrRef spec0 0)
/-- Its block at grid point `t`. -/
abbrev xblk (c : Dev nD) (t : Fin cfg0.N) : Vec Ideal S256x64x128 .f32 := iblk m c 0 t

/-- The index maps over the grid: point `t` reads and writes the `t`-th block of 256 cells, whole on the other axes. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

theorem t_lt (t : Fin cfg0.N) : t.val < 128 := lt_of_lt_of_eq t.isLt N_0

/-- Block `t` of any array of the padded shape: its entry (r, s, k) is the array's entry (256 t + r, s, k). -/
theorem blk_read (X : FVec Ideal S32768x64x128 .f32) (t : Fin cfg0.N) (r : Fin 256) (s : Fin 64) (k : Fin 128) :
    ((cfg0.win 0).blk t).view.read (Elt Ideal) X (ix3 r s k)
      = X (ix3 ⟨t.val * 256 + r.val, by have := t_lt t; omega⟩ s k) := by
  obtain ⟨e0, e1, e2, -, -⟩ := idx_facts t
  show X (((cfg0.win 0).blk t).view.emb (ix3 r s k)) = X _
  refine congrArg X ?_
  funext a
  apply Fin.ext
  match a with
  | ⟨0, _⟩ => show win0_0.index t (0 : Fin 3) * 256 + 1 * r.val = t.val * 256 + r.val; omega
  | ⟨1, _⟩ => show win0_0.index t (1 : Fin 3) * 64 + 1 * s.val = s.val; omega
  | ⟨2, _⟩ => show win0_0.index t (2 : Fin 3) * 128 + 1 * k.val = k.val; omega

/-- The kernel's input block at point `t` is block `t` of the padded array. -/
theorem xblk_eq (c : Dev nD) (t : Fin cfg0.N) :
    xblk m c t = ((cfg0.win 0).blk t).view.read (Elt Ideal) (xarr m c) := by
  show iblk m c 0 t = _
  unfold iblk
  rfl

/-- Entry (r, s, k) of the block at point `t` is entry (256 t + r, s, k) of the padded array. -/
theorem xblk_apply (c : Dev nD) (t : Fin cfg0.N) (r : Fin 256) (s : Fin 64) (k : Fin 128) :
    xblk m c t (ix3 r s k) = xarr m c (ix3 ⟨t.val * 256 + r.val, by have := t_lt t; omega⟩ s k) :=
  (congrFun (xblk_eq m c t) (ix3 r s k)).trans (blk_read (xarr m c) t r s k)

/-- Block `t` of an array of the output's shape, as a function of the block index: rows [256 t, 256 t + 256). -/
def blockSums (G : FVec Ideal S32768x128 .f32) (t : Fin cfg0.N) : S256x128.Idx → EReal :=
  fun y => G (ix2 ⟨t.val * 256 + (y 0).val, by have := t_lt t; have h : (y 0).val < 256 := (y 0).isLt; omega⟩ (y 1))

/-- What point `t` leaves in the output's staging buffer, entry by entry. -/
theorem outs_apply (c : Dev nD) (t : Fin cfg0.N) (r : Fin 256) (k : Fin 128) :
    outsAt0 m c t (ix2 r k) = cellSums (xarr m c) (ix2 ⟨t.val * 256 + r.val, by have := t_lt t; omega⟩ k) := by
  unfold outsAt0
  refine (out_A_apply c (grid0.coords t) (ms0_0 t) (hs0_0 t) (ms0_1 t) (hs0_1 t) (xblk m c t) r k).trans ?_
  unfold cellSums
  exact Finset.sum_congr rfl (fun s _ => xblk_apply m c t r s k)

/-- The same as one function of the block index. -/
theorem outs_fun (c : Dev nD) (t : Fin cfg0.N) : outsAt0 m c t = blockSums (cellSums (xarr m c)) t := by
  funext y
  obtain ⟨r, k, rfl⟩ : ∃ (r : Fin 256) (k : Fin 128), y = ix2 r k := ⟨y 0, y 1, eq_ix2 y⟩
  exact outs_apply m c t r k

/-- Reading block `t` of any array of the output's shape, entry by entry. -/
theorem blk1_read_apply (G : FVec Ideal S32768x128 .f32) (t : Fin cfg0.N) (r : Fin 256) (k : Fin 128) :
    ((cfg0.win 1).blk t).view.read (Elt Ideal) G (ix2 r k)
      = G (ix2 ⟨t.val * 256 + r.val, by have := t_lt t; omega⟩ k) := by
  obtain ⟨-, -, -, e3, e4⟩ := idx_facts t
  show G (((cfg0.win 1).blk t).view.emb (ix2 r k)) = G _
  refine congrArg G ?_
  funext a
  apply Fin.ext
  match a with
  | ⟨0, _⟩ => show win0_1.index t (0 : Fin 2) * 256 + 1 * r.val = t.val * 256 + r.val; omega
  | ⟨1, _⟩ => show win0_1.index t (1 : Fin 2) * 128 + 1 * k.val = k.val; omega

/-- Reading block `t` of any array of the output's shape gives that array's block function. -/
theorem blk1_read (G : FVec Ideal S32768x128 .f32) (t : Fin cfg0.N) :
    (((cfg0.win 1).blk t).view.read (Elt Ideal) G : S256x128.Idx → EReal) = blockSums G t := by
  funext y
  obtain ⟨r, k, rfl⟩ : ∃ (r : Fin 256) (k : Fin 128), y = ix2 r k := ⟨y 0, y 1, eq_ix2 y⟩
  exact blk1_read_apply G t r k

/-- The output window's blocks are never cut: the part a write-back moves is the whole block. -/
theorem cut1 (F : S256x128.Idx → EReal) (t : Fin cfg0.N) :
    ((cfg0.win 1).cut (grid0.coords t) F : S256x128.Idx → EReal) = F := rfl

/-- What point `t` writes back is block `t` of the per-cell sums of the padded array. -/
theorem flushed_eq (c : Dev nD) (t : Fin cfg0.N) :
    (dats m 0 c).flushed 1 t = ((cfg0.win 1).blk t).view.read (Elt Ideal) (cellSums (xarr m c)) := by
  show (cfg0.win 1).cut (grid0.coords t) ((dats m 0 c).after 1 t) = _
  rw [after0_1, outs_fun, blk1_read]
  exact cut1 _ t

/-- An index of the output array is in point `t`'s block iff each coordinate is in the block's range on its axis. -/
theorem mem_blk (t : Fin cfg0.N) (i : S32768x128.Idx) :
    i ∈ ((cfg0.win 1).blk t).view.set ↔ ∀ a : Fin 2, win0_1.index t a * S256x128.size a ≤ (i a).val
      ∧ (i a).val < win0_1.index t a * S256x128.size a + S256x128.size a := by
  show i ∈ ((View.whole main_call0_v46).slice (win0_1.rect t)).set ↔ _
  rw [View.set_slice_whole, Rect.mem_set_unit]
  exact Iff.rfl

/-- Every index of the output array is in the block of the point that handles its cell. -/
theorem cover (i : S32768x128.Idx) :
    ∃ t : Fin cfg0.N, (cfg0.win 1).flush t = true ∧ i ∈ ((cfg0.win 1).blk t).view.set := by
  have hi0 : (i 0).val < 32768 := (i 0).isLt
  have hi1 : (i 1).val < 128 := (i 1).isLt
  have hN : cfg0.N = 128 := N_0
  let t : Fin cfg0.N := ⟨(i 0).val / 256, by rw [hN]; omega⟩
  have ht : t.val = (i 0).val / 256 := rfl
  obtain ⟨-, -, -, e3, e4⟩ := idx_facts t
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 128 ≤ (i 1).val ∧ (i 1).val < win0_1.index t (1 : Fin 2) * 128 + 128; omega

/-- After the run the output array holds the per-cell sums of the padded array. -/
theorem final (c : Dev nD) : (dats m 0 c).arrAt 1 cfg0.N = cellSums (xarr m c) :=
  (dats m 0 c).arrAt_eq_of_cover 1 (cellSums (xarr m c)) (fun t _ => flushed_eq m c t) cover

/-- The program's result: the reshape and the transpose of the per-cell sums. -/
abbrev result (c : Dev nD) : Buf (Elt Ideal) ((c : Thread nD τ).loc main_v0) :=
  transpose S2x128x1x128x128 [0, 4, 1, 2, 3]
    (shapeCast S2x1x128x128x128 (cellSums (xarr m c)) shapeCasts_S32768x128_S2x1x128x128x128)
    transposes_S2x1x128x128x128_S2x128x1x128x128_0_4_1_2_3

/-- The two host operations after the kernel, over any contents: the result buffer ends at the reshape and transpose
    of what the kernel's output buffer holds. -/
theorem tail_of (WA : Valuation τ sig (Elt Ideal)) :
    StableHlo.after (hostOps1 (F := Ideal)) WA (Proc.devRef .tc main_v0)
      = transpose S2x128x1x128x128 [0, 4, 1, 2, 3]
          (shapeCast S2x1x128x128x128 (WA (Proc.devRef .tc main_call0_v46)) shapeCasts_S32768x128_S2x1x128x128x128)
          transposes_S2x1x128x128x128_S2x128x1x128x128_0_4_1_2_3 := by
  after_results
  rfl

/-- The two host operations after the kernel, applied to the output array as the run leaves it. -/
theorem tail_eq (c : Dev nD) :
    Pipeline.afterTail₀ cfgs (dats m) 0 (V0 m) [hostOps1] c main_v0 = result m c := by
  unfold Pipeline.afterTail₀
  show StableHlo.after hostOps1 _ (Proc.devRef .tc main_v0) = _
  refine (tail_of _).trans ?_
  unfold result
  refine congrArg (fun X => transpose S2x128x1x128x128 [0, 4, 1, 2, 3]
    (shapeCast S2x1x128x128x128 X shapeCasts_S32768x128_S2x1x128x128x128)
    transposes_S2x1x128x128x128_S2x128x1x128x128_0_4_1_2_3) ?_
  exact (Pipeline.withArrays_arr spec0 launch0.win.arr_inj c _ _ 1).trans (final m c)

/-- The frame run, read: the result at the reshape and transpose of the per-cell sums, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Bridge

end
-- ==== Proof.lean ====
/-
  A gather-multiply-scatter kernel against `segment_sum`. Both programs form, for each of 1000000 points, a row of 128
  products (a gathered depth scalar times a gathered feature row). The reference adds each row into the row of the
  [32768 × 128] result its cell index names. The kernel adds each row into a zero array [32768 × 64 × 128] at (cell,
  slot), the slot being the point's position inside its run of equal consecutive cell indices, clamped to 63, and a
  Pallas call then sums every cell over its 64 slots. Over the extended reals addition is commutative and associative,
  so both results are, at (c, k), the sum of the products `u (p, k)` over the points `p` whose cell is `c` — whatever
  the order of the cells, since colliding rows are added. The one difference is at negative cell indices, which the
  kernel's indexing wraps (c + 32768) and the reference's `segment_sum` drops: the precondition's third conjunct
  (`ranks_bev ≥ 0`) excludes them. Both programs end with the same reshape and transpose of that [32768 × 128] array.
  The frames are the generated ones; `preserves` has no entry.
-/
import proofs.«420067_j83021717832043_3_alg».proof.Defs
import proofs.«420067_j83021717832043_3_alg».proof.Proof.Gen.Kernel
import proofs.«420067_j83021717832043_3_alg».proof.Proof.Gen.Kernel.Skeleton
import proofs.«420067_j83021717832043_3_alg».proof.Proof.Gen.Kernel.Launch
import proofs.«420067_j83021717832043_3_alg».proof.Proof.Gen.Kernel.Points
import proofs.«420067_j83021717832043_3_alg».proof.Proof.Gen.Kernel.Frame
import proofs.«420067_j83021717832043_3_alg».proof.Proof.Gen.KernelIdeal
import proofs.«420067_j83021717832043_3_alg».proof.Proof.Gen.KernelIdeal.Skeleton
import proofs.«420067_j83021717832043_3_alg».proof.Proof.Gen.KernelIdeal.Launch
import proofs.«420067_j83021717832043_3_alg».proof.Proof.Gen.KernelIdeal.Points
import proofs.«420067_j83021717832043_3_alg».proof.Proof.Gen.KernelIdeal.Frame
import proofs.«420067_j83021717832043_3_alg».proof.Proof.Gen.ReferenceIdeal
import proofs.«420067_j83021717832043_3_alg».proof.Proof.Gen.ReferenceIdeal.Run
import proofs.«420067_j83021717832043_3_alg».proof.Proof.Gen.Pre_finite_inputs
import proofs.«420067_j83021717832043_3_alg».proof.Proof.PreNonneg
import proofs.«420067_j83021717832043_3_alg».proof.Proof.CellSums
import proofs.«420067_j83021717832043_3_alg».proof.Proof.HostPrefix
import proofs.«420067_j83021717832043_3_alg».proof.Proof.KernelArray
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

open Cert.KernelIdeal.Bridge in
/-- The [32768 × 128] arrays agree: the kernel's per-cell sums of the padded array are the reference's scatter. -/
theorem cells_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Host.scatterAdd Cert.ReferenceIdeal.scatter_S32768x128_S1000000x1_S1000000x128_1_0_0_1
        (broadcastInDim Cert.ReferenceIdeal.S32768x128 ![] Cert.ReferenceIdeal.Facts₀.bcast_S_S32768x128
          (constant (F := Ideal) Cert.ReferenceIdeal.S_ .f32 0x00000000#32))
        (broadcastInDim Cert.ReferenceIdeal.S1000000x1 ![0] Cert.ReferenceIdeal.Facts₀.bcast_S1000000_S1000000x1_0
          (m ((c.tc : Thread Cert.KernelIdeal.nD Cert.KernelIdeal.τ).loc Cert.KernelIdeal.main_arg4)))
        (prod (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)))
      = cellSums (xarr m c) := by
  funext i
  obtain ⟨q, k, rfl⟩ : ∃ (q : Fin 32768) (k : Fin 128), i = ix2 q k := ⟨i 0, i 1, eq_ix2 i⟩
  have hrb : ∀ p : Fin 1000000, 0 ≤ ((m ((c.tc : Thread Cert.KernelIdeal.nD Cert.KernelIdeal.τ).loc Cert.KernelIdeal.main_arg4)) (ix1 p)).toInt :=
    fun p => Cert.Bev.nonneg_of_pre _ _ _ _ _ _ _ (hpre c) p
  rw [cellSums_apply, show xarr m c = _ from V_padded m c]
  unfold padded starts
  exact (Cert.Bev.cellSums_eq Cert.ReferenceIdeal.scatter_S32768x128_S1000000x1_S1000000x128_1_0_0_1
    Cert.KernelIdeal.scatter_S32768x64x128_S1000000x2_S1000000x128_1_01_01_1 rfl rfl rfl rfl rfl rfl rfl rfl
    chainFacts Cert.KernelIdeal.Facts₀.bcast_S1000000_S1000000x1_0
    Cert.KernelIdeal.Facts₀.concatenates_S1000000x1_S1000000x1_S1000000x2_d1
    Cert.ReferenceIdeal.Facts₀.bcast_S_S32768x128 Cert.KernelIdeal.Facts₀.bcast_S_S32768x64x128 _ _ hrb q k).symm

/-- At `Ideal` the kernel's result is the reshape and transpose of the per-cell sums of the padded array (the frame run,
    read), the reference's the reshape and transpose of its scatter (the generated run) of arguments that agree: one array. -/
theorem algebraic : Cert.algebraic_KernelIdeal_ReferenceIdeal := by
  intro m ρ m' ρ' hpre hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, -, -⟩ := hagree c
  rw [e0, e1, e2, e3, e4]
  exact congrArg (fun X => transpose Cert.KernelIdeal.S2x128x1x128x128 [0, 4, 1, 2, 3]
      (shapeCast Cert.KernelIdeal.S2x1x128x128x128 X Cert.KernelIdeal.Facts₀.shapeCasts_S32768x128_S2x1x128x128x128)
      Cert.KernelIdeal.Facts₀.transposes_S2x1x128x128x128_S2x128x1x128x128_0_4_1_2_3) (cells_eq m hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
